-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x1024x3 : Shape := ⟨3, ![1, 1024, 3]⟩
abbrev S1x1x8192 : Shape := ⟨3, ![1, 1, 8192]⟩
abbrev S1024x3 : Shape := ⟨2, ![1024, 3]⟩
abbrev S1024 : Shape := ⟨1, ![1024]⟩
abbrev S1024x1 : Shape := ⟨2, ![1024, 1]⟩
abbrev S3x1024 : Shape := ⟨2, ![3, 1024]⟩
abbrev S1024x1024 : Shape := ⟨2, ![1024, 1024]⟩
abbrev S1x1024 : Shape := ⟨2, ![1, 1024]⟩
abbrev S1x1x1024 : Shape := ⟨3, ![1, 1, 1024]⟩
abbrev S4x8192 : Shape := ⟨2, ![4, 8192]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg1 : BitVec 32 := BitVec.ofNat 32 (i 1).val
  let c1024_i32 : BitVec 32 := 1024#32
  let v42 : BitVec 32 := Scalar.muli arg1 c1024_i32
  v42
def k0_mult2 (i : grid0.Coords) : BitVec 32 :=
  let arg2 : BitVec 32 := BitVec.ofNat 32 (i 2).val
  let c1024_i32_10 : BitVec 32 := 1024#32
  let v44 : BitVec 32 := Scalar.muli arg2 c1024_i32_10
  v44
def k0_off1 (i : grid0.Coords) : Fin 3 → Nat :=
  let c0_11 : Index := 0#32
  let c0_12 : Index := 0#32
  let arg1 : BitVec 32 := BitVec.ofNat 32 (i 1).val
  let c1024_i32 : BitVec 32 := 1024#32
  let v42 : BitVec 32 := Scalar.muli arg1 c1024_i32
  let v43 : BitVec 32 := v42
  let v46 : Index := Scalar.indexCast v43
  ![0, 0, v46.toNat]
def k0_off2 (i : grid0.Coords) : Fin 3 → Nat :=
  let c0_16 : Index := 0#32
  let c0_17 : Index := 0#32
  let arg2 : BitVec 32 := BitVec.ofNat 32 (i 2).val
  let c1024_i32_10 : BitVec 32 := 1024#32
  let v44 : BitVec 32 := Scalar.muli arg2 c1024_i32_10
  let v45 : BitVec 32 := v44
  let v55 : Index := Scalar.indexCast v45
  ![0, 0, v55.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1x8192_S1x1x8192_0_0_0 : ∀ a, (![0, 0, 0] : Fin 3 → Nat) a + S1x1x8192.size a ≤ S1x1x8192.size a
  h_S1x1x8192 : 0 < S1x1x8192.numel
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  transposes_S1024x3_p1_0_S3x1024 : S1024x3.Transposes [1, 0] S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  transposes_S1024x1_p1_0_S1x1024 : S1024x1.Transposes [1, 0] S1x1024
  h_S1x1x1024 : 0 < S1x1x1024.numel
  shapeCasts_S1x1x1024_S1024 : S1x1x1024.ShapeCasts S1024
  reduces_S1024x1024_S1024 : S1024x1024.Reduces [1] S1024
  shapeCasts_S1024_S1x1x1024 : S1024.ShapeCasts S1x1x1024
  reduces_S1024x1024_S1024_2 : S1024x1024.Reduces [0] S1024
  shapeCasts_S4x1x8192_S4x8192 : S4x1x8192.ShapeCasts S4x8192
  reducesTo_S4x8192_S_d0_1 : S4x8192.ReducesTo [0, 1] S_
  h_S_ : 0 < S_.numel
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1x1x1024.size a ≤ S1x1x8192.size a
  k0_off2_inb : ∀ i : grid0.Coords, ∀ a, (k0_off2 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S4x1x8192.size a
  hwx0_2 : ∀ i : grid0.Coords, EltTy.bits .f32 = 32 ∨ (Rect.block (s := S4x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BitsCases.lean ====
/-
  The chamfer kernel walks a grid (b, i, j) of 4 × 8 × 8 points in row-major order, so a batch b is the
  stretch of 64 consecutive points 64·b … 64·b + 63. Its body has one conditional: at i = 0 ∧ j = 0 — the first
  point of a batch — both running-minimum rows are reset to +∞ before the point's tile is folded in. This
  module decides that condition over the grid in closed form (the points ≡ 0 mod 64) and names the staging
  memrefs the pipeline hands the body at a point.
-/
import proofs.«111738_j2542620639339_1_alg».proof.Proof.Gen.Kernel.Frame
import proofs.«111738_j2542620639339_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset condition of the body, as the skeleton computes it from the grid coordinates: i = 0 and j = 0. -/
abbrev isReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- The reset points are exactly the first points of the four batches: t ≡ 0 (mod 64). -/
theorem isReset_iff : ∀ t : Fin cfg0.N, isReset (grid0.coords t) ↔ t.val % 64 = 0 :=
  (by decide +kernel : ∀ t : Fin grid0.N, isReset (grid0.coords t) ↔ t.val % 64 = 0)

/-- Each window's current staging memref at point t, spelled as the pipeline passes it, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

/-- One staging buffer of each running-minimum row, through which its contents are stated (which of the two
    buffers is chosen does not matter once the stores cover the block). -/
abbrev VO2 : View sig .tc .vmem S1x1x8192 .f32 := (Memref.whole cc0_stg2_0 : Memref sig .tc .vmem S1x1x8192 .f32).view
abbrev VO3 : View sig .tc .vmem S1x1x8192 .f32 := (Memref.whole cc0_stg3_0 : Memref sig .tc .vmem S1x1x8192 .f32).view

end Cert.Kernel.Body

end
-- ==== Proof.BitsResetRun.lean ====
/-
  The body at a reset point (i = 0 ∧ j = 0). Both running-minimum rows are first stored whole at +∞, then the
  point's tile of squared distances is folded into the row's slice [1024·i, 1024·i + 1024) (resp. the column's
  slice [1024·j, …)). What the rows held on entry is read but never used, so the run holds for any entry contents
  of the two output buffers; what each buffer ends with is recorded as the list of pieces the stores wrote, last first.
-/
import proofs.«111738_j2542620639339_1_alg».proof.Proof.BitsCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at a reset point, on whole staging memrefs: the inputs at their contents, the two outputs
    at anything; it runs to the continuation holding the inputs as they were and each output's buffer with its
    pieces written. The pieces are the witness the symbolic run finds. -/
noncomputable def resetRun (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) :
    Σ' (L2 : List (View.Piece (Elt F) S1x1x8192 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Body

end
-- ==== Proof.BitsUpdateRun.lean ====
/-
  The body at a point that is not the first of its batch. Nothing is reset: the point's tile of squared distances
  is folded into the slice [1024·i, 1024·i + 1024) of the running row minimum and into the slice [1024·j, …) of the
  running column minimum, each slice read from what the points before left there. The rest of each row is untouched,
  so what a buffer ends with is the one stored slice laid over its entry contents.
-/
import proofs.«111738_j2542620639339_1_alg».proof.Proof.BitsCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at a point that does not reset, on whole staging memrefs: the inputs at their contents, the
    two outputs at their running contents xo2, xo3; it runs to the continuation holding the inputs as they were and
    each output's buffer with its pieces written over the running contents. -/
noncomputable def updateRun (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : ¬isReset i)
    (x0 : Vec F S1x1024x3 .f32) (x1 : Vec F S1x1024x3 .f32) (xo2 : Vec F S1x1x8192 .f32) (xo3 : Vec F S1x1x8192 .f32) :
    Σ' (L2 : List (View.Piece (Elt F) S1x1x8192 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.Kernel.Body

end
-- ==== Proof.BitsBody.lean ====
/-
  The proof data of the chamfer pipeline and its body obligation, at any float instance.
  The two outputs are running minima carried from point to point inside a batch of 64 points: the row minimum
  (over the second cloud, one entry per point of the first) and the column minimum (over the first cloud, one entry
  per point of the second). Their staging buffers are written back only at the last point of a batch (t ≡ 63 mod 64)
  and are reset by the body itself at the first (t ≡ 0 mod 64), so what a buffer holds after point t is defined by
  recursion on t: at a reset point what the reset run leaves, at any other point the update run's stored slice laid
  over what the point before left. With that the body obligation is a case split on t mod 64, and the launch
  theorem gives the run of @main with every array named.
-/
import proofs.«111738_j2542620639339_1_alg».proof.Proof.BitsResetRun
import proofs.«111738_j2542620639339_1_alg».proof.Proof.BitsUpdateRun

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves in each output's staging buffer -/

/-- The reset run stores each output whole (the +∞ fill), so its pieces cover the block. -/
theorem resetCover2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) (y : S1x1x8192.Idx) :
    ∃ pc ∈ (resetRun c i arg3 harg3 arg4 harg4 arg5 harg5 arg6 harg6 hc0 x0 x1).1, y ∈ pc.1.set :=
  View.cover_of_wholeMem (resetRun c i arg3 harg3 arg4 harg4 arg5 harg5 arg6 harg6 hc0 x0 x1).1 (by sl_whole_mem) y
theorem resetCover3 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) (y : S1x1x8192.Idx) :
    ∃ pc ∈ (resetRun c i arg3 harg3 arg4 harg4 arg5 harg5 arg6 harg6 hc0 x0 x1).2.1, y ∈ pc.1.set :=
  View.cover_of_wholeMem (resetRun c i arg3 harg3 arg4 harg4 arg5 harg5 arg6 harg6 hc0 x0 x1).2.1 (by sl_whole_mem) y

/-- What a reset point leaves in the row-minimum buffer: its pieces read back (over anything: they cover). -/
def resetRow (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) : Vec F S1x1x8192 .f32 :=
  VO2.read (Elt F) (VO2.writes (Elt F) VO2.junk (resetRun c i arg3 harg3 arg4 harg4 arg5 harg5 arg6 harg6 hc0 x0 x1).1)
/-- What a reset point leaves in the column-minimum buffer. -/
def resetCol (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) : Vec F S1x1x8192 .f32 :=
  VO3.read (Elt F) (VO3.writes (Elt F) VO3.junk (resetRun c i arg3 harg3 arg4 harg4 arg5 harg5 arg6 harg6 hc0 x0 x1).2.1)

/-- What a later point leaves in the row-minimum buffer: its stored slice read back over what the point before left. -/
def updateRow (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : ¬isReset i)
    (x0 : Vec F S1x1024x3 .f32) (x1 : Vec F S1x1024x3 .f32) (xo2 : Vec F S1x1x8192 .f32) (xo3 : Vec F S1x1x8192 .f32) : Vec F S1x1x8192 .f32 :=
  arg5.view.read (Elt F) (arg5.view.writes (Elt F) (harg5.unread xo2) (updateRun c i arg3 harg3 arg4 harg4 arg5 harg5 arg6 harg6 hc0 x0 x1 xo2 xo3).1)
/-- What a later point leaves in the column-minimum buffer. -/
def updateCol (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : ¬isReset i)
    (x0 : Vec F S1x1024x3 .f32) (x1 : Vec F S1x1024x3 .f32) (xo2 : Vec F S1x1x8192 .f32) (xo3 : Vec F S1x1x8192 .f32) : Vec F S1x1x8192 .f32 :=
  arg6.view.read (Elt F) (arg6.view.writes (Elt F) (harg6.unread xo3) (updateRun c i arg3 harg3 arg4 harg4 arg5 harg5 arg6 harg6 hc0 x0 x1 xo2 xo3).2.1)

/-! ## The running minima, point by point -/

/-- THE RUNNING MINIMA. What the two output staging buffers hold after the body at position n (row minimum, column
    minimum): at a reset point what the reset run leaves from the point's two input blocks; at any other point the
    update run over what this pair was at n - 1 (the buffers are not written back in between). -/
def minsAt (c : Dev nD) : (n : ℕ) → n < cfg0.N → Vec F S1x1x8192 .f32 × Vec F S1x1x8192 .f32
  | 0, hn =>
    (resetRow c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((isReset_iff ⟨0, hn⟩).mpr (Nat.zero_mod _)) (iblk m c 0 ⟨0, hn⟩) (iblk m c 1 ⟨0, hn⟩),
     resetCol c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((isReset_iff ⟨0, hn⟩).mpr (Nat.zero_mod _)) (iblk m c 0 ⟨0, hn⟩) (iblk m c 1 ⟨0, hn⟩))
  | n + 1, hn =>
    if h0 : (n + 1) % 64 = 0 then
      (resetRow c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((isReset_iff ⟨n + 1, hn⟩).mpr h0) (iblk m c 0 ⟨n + 1, hn⟩) (iblk m c 1 ⟨n + 1, hn⟩),
       resetCol c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((isReset_iff ⟨n + 1, hn⟩).mpr h0) (iblk m c 0 ⟨n + 1, hn⟩) (iblk m c 1 ⟨n + 1, hn⟩))
    else
      (updateRow c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((isReset_iff ⟨n + 1, hn⟩).mp h)) (iblk m c 0 ⟨n + 1, hn⟩) (iblk m c 1 ⟨n + 1, hn⟩) (minsAt c n (Nat.lt_of_succ_lt hn)).1 (minsAt c n (Nat.lt_of_succ_lt hn)).2,
       updateCol c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((isReset_iff ⟨n + 1, hn⟩).mp h)) (iblk m c 0 ⟨n + 1, hn⟩) (iblk m c 1 ⟨n + 1, hn⟩) (minsAt c n (Nat.lt_of_succ_lt hn)).1 (minsAt c n (Nat.lt_of_succ_lt hn)).2)

/-- The running minima at a reset point. -/
theorem minsAt_reset (c : Dev nD) (t : Fin cfg0.N) (h0 : t.val % 64 = 0) :
    minsAt m c t.val t.isLt =
      (resetRow c (grid0.coords t) (ms0 t) (hs0 t) (ms1 t) (hs1 t) (ms2 t) (hs2 t) (ms3 t) (hs3 t) ((isReset_iff t).mpr h0) (iblk m c 0 t) (iblk m c 1 t),
       resetCol c (grid0.coords t) (ms0 t) (hs0 t) (ms1 t) (hs1 t) (ms2 t) (hs2 t) (ms3 t) (hs3 t) ((isReset_iff t).mpr h0) (iblk m c 0 t) (iblk m c 1 t)) := by
  obtain ⟨n, hn⟩ := t
  cases n with
  | zero => exact rfl
  | succ n => exact (dif_pos h0).trans rfl

/-- The running minima at any other point: the update over what the point before left. -/
theorem minsAt_update (c : Dev nD) (t : Fin cfg0.N) (h0 : ¬t.val % 64 = 0) :
    minsAt m c t.val t.isLt =
      (updateRow c (grid0.coords t) (ms0 t) (hs0 t) (ms1 t) (hs1 t) (ms2 t) (hs2 t) (ms3 t) (hs3 t) (fun h => h0 ((isReset_iff t).mp h)) (iblk m c 0 t) (iblk m c 1 t)
          (minsAt m c (t.val - 1) (Nat.lt_of_le_of_lt (Nat.sub_le _ _) t.isLt)).1 (minsAt m c (t.val - 1) (Nat.lt_of_le_of_lt (Nat.sub_le _ _) t.isLt)).2,
       updateCol c (grid0.coords t) (ms0 t) (hs0 t) (ms1 t) (hs1 t) (ms2 t) (hs2 t) (ms3 t) (hs3 t) (fun h => h0 ((isReset_iff t).mp h)) (iblk m c 0 t) (iblk m c 1 t)
          (minsAt m c (t.val - 1) (Nat.lt_of_le_of_lt (Nat.sub_le _ _) t.isLt)).1 (minsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core c: the arrays as the region finds them; after the body at point t
    each input's buffer at its block and the two outputs' at the running minima; the class invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (minsAt m c t.val t.isLt).1
    | ⟨3, _⟩ => (minsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (minsAt m c t.val t.isLt).1 := by dsimp only [dats]
theorem after3 (c : Dev nD) (t : Fin cfg0.N) : (dats m 0 c).after 3 t = (minsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- Inside a batch (t not ≡ 0 mod 64) an output's current staging buffer holds what the body left at the point
    before: the point is not the first, and the buffer was not written back in between (write-backs happen at
    t ≡ 63 mod 64 only). -/
theorem before2_update (c : Dev nD) (t : Fin cfg0.N) (h0 : ¬t.val % 64 = 0) (d) :
    (dats m 0 c).before 2 t d = (minsAt m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_update (c : Dev nD) (t : Fin cfg0.N) (h0 : ¬t.val % 64 = 0) (d) :
    (dats m 0 c).before 3 t d = (minsAt m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; t mod 64 says whether the point resets; inside a
    batch the outputs' memrefs hold what the point before left; so the point's run applies, and what it leaves is
    the running minima's definition at t. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 256 := lt_of_lt_of_eq t.isLt (show cfg0.N = 256 from N_0)
  by_cases h0 : t.val % 64 = 0
  · rw [minsAt_reset m c t h0]
    dsimp only
    unfold resetRow resetCol
    iintro ⟨HΦ, Ho, ⟨%d0, H0⟩, ⟨%d1, H1⟩, ⟨%d2, H2⟩, ⟨%d3, H3⟩⟩
    iapply ((resetRun c (grid0.coords t) _ _ _ _ _ _ _ _ ((isReset_iff t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (resetCover2 c _ _ _ _ _ _ _ _ _ _ _ _)
    unfold owns; iexists _; isplitr
    swap; · iexact H3
    ipureintro; exact View.read_writes_of_cover _ _ _ _ _ (resetCover3 c _ _ _ _ _ _ _ _ _ _ _ _)
  · rw [minsAt_update m c t h0]
    dsimp only
    simp only [before2_update m c t h0, before3_update m c t h0]
    unfold updateRow updateCol
    iintro ⟨HΦ, Ho, ⟨%d0, H0⟩, ⟨%d1, H1⟩, ⟨%d2, H2⟩, ⟨%d3, H3⟩⟩
    iapply ((updateRun c (grid0.coords t) _ _ _ _ _ _ _ _ (fun h => h0 ((isReset_iff t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    unfold owns; iexists _; isplitr
    swap; · iexact H3
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the write-backs of the proof data leave and every other unscoped buffer as
    the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's run: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealCases.lean ====
/-
  The chamfer kernel walks a grid (b, i, j) of 4 × 8 × 8 points in row-major order, so a batch b is the
  stretch of 64 consecutive points 64·b … 64·b + 63. Its body has one conditional: at i = 0 ∧ j = 0 — the first
  point of a batch — both running-minimum rows are reset to +∞ before the point's tile is folded in. This
  module decides that condition over the grid in closed form (the points ≡ 0 mod 64) and names the staging
  memrefs the pipeline hands the body at a point.
-/
import proofs.«111738_j2542620639339_1_alg».proof.Proof.Gen.KernelIdeal.Frame
import proofs.«111738_j2542620639339_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset condition of the body, as the skeleton computes it from the grid coordinates: i = 0 and j = 0. -/
abbrev isReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- The reset points are exactly the first points of the four batches: t ≡ 0 (mod 64). -/
theorem isReset_iff : ∀ t : Fin cfg0.N, isReset (grid0.coords t) ↔ t.val % 64 = 0 :=
  (by decide +kernel : ∀ t : Fin grid0.N, isReset (grid0.coords t) ↔ t.val % 64 = 0)

/-- Each window's current staging memref at point t, spelled as the pipeline passes it, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

/-- One staging buffer of each running-minimum row, through which its contents are stated (which of the two
    buffers is chosen does not matter once the stores cover the block). -/
abbrev VO2 : View sig .tc .vmem S1x1x8192 .f32 := (Memref.whole cc0_stg2_0 : Memref sig .tc .vmem S1x1x8192 .f32).view
abbrev VO3 : View sig .tc .vmem S1x1x8192 .f32 := (Memref.whole cc0_stg3_0 : Memref sig .tc .vmem S1x1x8192 .f32).view

end Cert.KernelIdeal.Body

end
-- ==== Proof.IdealResetRun.lean ====
/-
  The body at a reset point (i = 0 ∧ j = 0). Both running-minimum rows are first stored whole at +∞, then the
  point's tile of squared distances is folded into the row's slice [1024·i, 1024·i + 1024) (resp. the column's
  slice [1024·j, …)). What the rows held on entry is read but never used, so the run holds for any entry contents
  of the two output buffers; what each buffer ends with is recorded as the list of pieces the stores wrote, last first.
-/
import proofs.«111738_j2542620639339_1_alg».proof.Proof.IdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at a reset point, on whole staging memrefs: the inputs at their contents, the two outputs
    at anything; it runs to the continuation holding the inputs as they were and each output's buffer with its
    pieces written. The pieces are the witness the symbolic run finds. -/
noncomputable def resetRun (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) :
    Σ' (L2 : List (View.Piece (Elt F) S1x1x8192 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Body

end
-- ==== Proof.IdealUpdateRun.lean ====
/-
  The body at a point that is not the first of its batch. Nothing is reset: the point's tile of squared distances
  is folded into the slice [1024·i, 1024·i + 1024) of the running row minimum and into the slice [1024·j, …) of the
  running column minimum, each slice read from what the points before left there. The rest of each row is untouched,
  so what a buffer ends with is the one stored slice laid over its entry contents.
-/
import proofs.«111738_j2542620639339_1_alg».proof.Proof.IdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at a point that does not reset, on whole staging memrefs: the inputs at their contents, the
    two outputs at their running contents xo2, xo3; it runs to the continuation holding the inputs as they were and
    each output's buffer with its pieces written over the running contents. -/
noncomputable def updateRun (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : ¬isReset i)
    (x0 : Vec F S1x1024x3 .f32) (x1 : Vec F S1x1024x3 .f32) (xo2 : Vec F S1x1x8192 .f32) (xo3 : Vec F S1x1x8192 .f32) :
    Σ' (L2 : List (View.Piece (Elt F) S1x1x8192 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__kernel i arg3 harg3 arg4 harg4 arg5 harg5 arg6 harg6) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.KernelIdeal.Body

end
-- ==== Proof.IdealBody.lean ====
/-
  The proof data of the chamfer pipeline and its body obligation, at any float instance.
  The two outputs are running minima carried from point to point inside a batch of 64 points: the row minimum
  (over the second cloud, one entry per point of the first) and the column minimum (over the first cloud, one entry
  per point of the second). Their staging buffers are written back only at the last point of a batch (t ≡ 63 mod 64)
  and are reset by the body itself at the first (t ≡ 0 mod 64), so what a buffer holds after point t is defined by
  recursion on t: at a reset point what the reset run leaves, at any other point the update run's stored slice laid
  over what the point before left. With that the body obligation is a case split on t mod 64, and the launch
  theorem gives the run of @main with every array named.
-/
import proofs.«111738_j2542620639339_1_alg».proof.Proof.IdealResetRun
import proofs.«111738_j2542620639339_1_alg».proof.Proof.IdealUpdateRun

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves in each output's staging buffer -/

/-- The reset run stores each output whole (the +∞ fill), so its pieces cover the block. -/
theorem resetCover2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) (y : S1x1x8192.Idx) :
    ∃ pc ∈ (resetRun c i arg3 harg3 arg4 harg4 arg5 harg5 arg6 harg6 hc0 x0 x1).1, y ∈ pc.1.set :=
  View.cover_of_wholeMem (resetRun c i arg3 harg3 arg4 harg4 arg5 harg5 arg6 harg6 hc0 x0 x1).1 (by sl_whole_mem) y
theorem resetCover3 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) (y : S1x1x8192.Idx) :
    ∃ pc ∈ (resetRun c i arg3 harg3 arg4 harg4 arg5 harg5 arg6 harg6 hc0 x0 x1).2.1, y ∈ pc.1.set :=
  View.cover_of_wholeMem (resetRun c i arg3 harg3 arg4 harg4 arg5 harg5 arg6 harg6 hc0 x0 x1).2.1 (by sl_whole_mem) y

/-- What a reset point leaves in the row-minimum buffer: its pieces read back (over anything: they cover). -/
def resetRow (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) : Vec F S1x1x8192 .f32 :=
  VO2.read (Elt F) (VO2.writes (Elt F) VO2.junk (resetRun c i arg3 harg3 arg4 harg4 arg5 harg5 arg6 harg6 hc0 x0 x1).1)
/-- What a reset point leaves in the column-minimum buffer. -/
def resetCol (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : isReset i)
    (x0 : Vec F S1x1024x3 .f32) (x1 : Vec F S1x1024x3 .f32) : Vec F S1x1x8192 .f32 :=
  VO3.read (Elt F) (VO3.writes (Elt F) VO3.junk (resetRun c i arg3 harg3 arg4 harg4 arg5 harg5 arg6 harg6 hc0 x0 x1).2.1)

/-- What a later point leaves in the row-minimum buffer: its stored slice read back over what the point before left. -/
def updateRow (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : ¬isReset i)
    (x0 : Vec F S1x1024x3 .f32) (x1 : Vec F S1x1024x3 .f32) (xo2 : Vec F S1x1x8192 .f32) (xo3 : Vec F S1x1x8192 .f32) : Vec F S1x1x8192 .f32 :=
  arg5.view.read (Elt F) (arg5.view.writes (Elt F) (harg5.unread xo2) (updateRun c i arg3 harg3 arg4 harg4 arg5 harg5 arg6 harg6 hc0 x0 x1 xo2 xo3).1)
/-- What a later point leaves in the column-minimum buffer. -/
def updateCol (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (hc0 : ¬isReset i)
    (x0 : Vec F S1x1024x3 .f32) (x1 : Vec F S1x1024x3 .f32) (xo2 : Vec F S1x1x8192 .f32) (xo3 : Vec F S1x1x8192 .f32) : Vec F S1x1x8192 .f32 :=
  arg6.view.read (Elt F) (arg6.view.writes (Elt F) (harg6.unread xo3) (updateRun c i arg3 harg3 arg4 harg4 arg5 harg5 arg6 harg6 hc0 x0 x1 xo2 xo3).2.1)

/-! ## The running minima, point by point -/

/-- THE RUNNING MINIMA. What the two output staging buffers hold after the body at position n (row minimum, column
    minimum): at a reset point what the reset run leaves from the point's two input blocks; at any other point the
    update run over what this pair was at n - 1 (the buffers are not written back in between). -/
def minsAt (c : Dev nD) : (n : ℕ) → n < cfg0.N → Vec F S1x1x8192 .f32 × Vec F S1x1x8192 .f32
  | 0, hn =>
    (resetRow c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((isReset_iff ⟨0, hn⟩).mpr (Nat.zero_mod _)) (iblk m c 0 ⟨0, hn⟩) (iblk m c 1 ⟨0, hn⟩),
     resetCol c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((isReset_iff ⟨0, hn⟩).mpr (Nat.zero_mod _)) (iblk m c 0 ⟨0, hn⟩) (iblk m c 1 ⟨0, hn⟩))
  | n + 1, hn =>
    if h0 : (n + 1) % 64 = 0 then
      (resetRow c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((isReset_iff ⟨n + 1, hn⟩).mpr h0) (iblk m c 0 ⟨n + 1, hn⟩) (iblk m c 1 ⟨n + 1, hn⟩),
       resetCol c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((isReset_iff ⟨n + 1, hn⟩).mpr h0) (iblk m c 0 ⟨n + 1, hn⟩) (iblk m c 1 ⟨n + 1, hn⟩))
    else
      (updateRow c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((isReset_iff ⟨n + 1, hn⟩).mp h)) (iblk m c 0 ⟨n + 1, hn⟩) (iblk m c 1 ⟨n + 1, hn⟩) (minsAt c n (Nat.lt_of_succ_lt hn)).1 (minsAt c n (Nat.lt_of_succ_lt hn)).2,
       updateCol c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((isReset_iff ⟨n + 1, hn⟩).mp h)) (iblk m c 0 ⟨n + 1, hn⟩) (iblk m c 1 ⟨n + 1, hn⟩) (minsAt c n (Nat.lt_of_succ_lt hn)).1 (minsAt c n (Nat.lt_of_succ_lt hn)).2)

/-- The running minima at a reset point. -/
theorem minsAt_reset (c : Dev nD) (t : Fin cfg0.N) (h0 : t.val % 64 = 0) :
    minsAt m c t.val t.isLt =
      (resetRow c (grid0.coords t) (ms0 t) (hs0 t) (ms1 t) (hs1 t) (ms2 t) (hs2 t) (ms3 t) (hs3 t) ((isReset_iff t).mpr h0) (iblk m c 0 t) (iblk m c 1 t),
       resetCol c (grid0.coords t) (ms0 t) (hs0 t) (ms1 t) (hs1 t) (ms2 t) (hs2 t) (ms3 t) (hs3 t) ((isReset_iff t).mpr h0) (iblk m c 0 t) (iblk m c 1 t)) := by
  obtain ⟨n, hn⟩ := t
  cases n with
  | zero => exact rfl
  | succ n => exact (dif_pos h0).trans rfl

/-- The running minima at any other point: the update over what the point before left. -/
theorem minsAt_update (c : Dev nD) (t : Fin cfg0.N) (h0 : ¬t.val % 64 = 0) :
    minsAt m c t.val t.isLt =
      (updateRow c (grid0.coords t) (ms0 t) (hs0 t) (ms1 t) (hs1 t) (ms2 t) (hs2 t) (ms3 t) (hs3 t) (fun h => h0 ((isReset_iff t).mp h)) (iblk m c 0 t) (iblk m c 1 t)
          (minsAt m c (t.val - 1) (Nat.lt_of_le_of_lt (Nat.sub_le _ _) t.isLt)).1 (minsAt m c (t.val - 1) (Nat.lt_of_le_of_lt (Nat.sub_le _ _) t.isLt)).2,
       updateCol c (grid0.coords t) (ms0 t) (hs0 t) (ms1 t) (hs1 t) (ms2 t) (hs2 t) (ms3 t) (hs3 t) (fun h => h0 ((isReset_iff t).mp h)) (iblk m c 0 t) (iblk m c 1 t)
          (minsAt m c (t.val - 1) (Nat.lt_of_le_of_lt (Nat.sub_le _ _) t.isLt)).1 (minsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core c: the arrays as the region finds them; after the body at point t
    each input's buffer at its block and the two outputs' at the running minima; the class invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (minsAt m c t.val t.isLt).1
    | ⟨3, _⟩ => (minsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (minsAt m c t.val t.isLt).1 := by dsimp only [dats]
theorem after3 (c : Dev nD) (t : Fin cfg0.N) : (dats m 0 c).after 3 t = (minsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- Inside a batch (t not ≡ 0 mod 64) an output's current staging buffer holds what the body left at the point
    before: the point is not the first, and the buffer was not written back in between (write-backs happen at
    t ≡ 63 mod 64 only). -/
theorem before2_update (c : Dev nD) (t : Fin cfg0.N) (h0 : ¬t.val % 64 = 0) (d) :
    (dats m 0 c).before 2 t d = (minsAt m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_update (c : Dev nD) (t : Fin cfg0.N) (h0 : ¬t.val % 64 = 0) (d) :
    (dats m 0 c).before 3 t d = (minsAt m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; t mod 64 says whether the point resets; inside a
    batch the outputs' memrefs hold what the point before left; so the point's run applies, and what it leaves is
    the running minima's definition at t. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 256 := lt_of_lt_of_eq t.isLt (show cfg0.N = 256 from N_0)
  by_cases h0 : t.val % 64 = 0
  · rw [minsAt_reset m c t h0]
    dsimp only
    unfold resetRow resetCol
    iintro ⟨HΦ, Ho, ⟨%d0, H0⟩, ⟨%d1, H1⟩, ⟨%d2, H2⟩, ⟨%d3, H3⟩⟩
    iapply ((resetRun c (grid0.coords t) _ _ _ _ _ _ _ _ ((isReset_iff t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (resetCover2 c _ _ _ _ _ _ _ _ _ _ _ _)
    unfold owns; iexists _; isplitr
    swap; · iexact H3
    ipureintro; exact View.read_writes_of_cover _ _ _ _ _ (resetCover3 c _ _ _ _ _ _ _ _ _ _ _ _)
  · rw [minsAt_update m c t h0]
    dsimp only
    simp only [before2_update m c t h0, before3_update m c t h0]
    unfold updateRow updateCol
    iintro ⟨HΦ, Ho, ⟨%d0, H0⟩, ⟨%d1, H1⟩, ⟨%d2, H2⟩, ⟨%d3, H3⟩⟩
    iapply ((updateRun c (grid0.coords t) _ _ _ _ _ _ _ _ (fun h => h0 ((isReset_iff t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    unfold owns; iexists _; isplitr
    swap; · iexact H3
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the write-backs of the proof data leave and every other unscoped buffer as
    the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's run: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.IdealTile.lean ====
/-
  One point's tile of squared distances. At a grid point the body holds a block x₀ of 1024 points of the first cloud
  and a block x₁ of 1024 points of the second, and computes the 1024 × 1024 tile
      tile r q = (‖x₀[r]‖² + ‖x₁[q]‖²) − 2 · (x₀[r,0]·x₁[q,0] + x₀[r,1]·x₁[q,1] + x₀[r,2]·x₁[q,2]),
  the norms as lane sums over the three coordinates, the inner product as three broadcast products added into a zero
  tile one after the other. Read at an entry (r, q), over the extended reals, that is the expression above with the
  inner product as one sum over the coordinate.
-/
import proofs.«111738_j2542620639339_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PointValue

open Idealize.ShloMosaic Idealize.ShloMosaic.TcCoe Idealize.ShloMosaic.ValueIdx Idealize.SL.Sem
open Cert.KernelIdeal Cert.KernelIdeal.Gen

/-- A vector of 1024 entries viewed as a column [1024, 1] reads, at (i, u), the vector at i. -/
theorem col_of_vec_apply {α : Type} (x : S1024.Idx → α) (h : S1024.ShapeCasts S1024x1) (i : Fin 1024) (u : Fin 1) :
    shapeCast S1024x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [1024, 1] broadcast along the second axis reads, at (p, c), the column at (p, 0). -/
theorem bcast_col_apply {α : Type} (v : S1024x1.Idx → α) (h : S1024x1.Broadcasts S1024x1024) (p c : Fin 1024) :
    broadcastTo S1024x1024 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The sum over the three coordinates of a [1024, 3] array, read at r. -/
theorem lane_sum_apply (v : FVec Ideal S1024x3 .f32) (h : S1024x3.Reduces [1] S1024) (hφ : FKind.Formats .f32)
    (hacc : (0x00000000#32 : BitVec 32) = FKind.add.neutral .f32 hφ) (r : Fin 1024) :
    multiReduction (F := Ideal) .add [1] S1024 v 0x00000000#32 h hφ hacc (ix1 r) = ∑ d : Fin 3, v (ix2 r d) := by
  refine (Ideal.multiReduction_add_single v _ h hφ hacc (ix1 r)).trans ?_
  refine Finset.sum_congr rfl fun d _ => congrArg v ?_
  funext a
  match a with
  | ⟨0, _⟩ => exact Fin.ext rfl
  | ⟨1, _⟩ => exact Fin.ext rfl

/-- Column o of a [1024, 3] array, cut out as a [1024, 1] column, reads at (r, u) the array at (r, c), c the
    coordinate o. -/
theorem slice_col_apply {α : Type} (o : Nat) (v : S1024x3.Idx → α) (h : S1024x3.Slices ![0, o] S1024x1)
    (r : Fin 1024) (u : Fin 1) (c : Fin 3) (hc : c.val = o) :
    extractStridedSlice S1024x1 ![0, o] v h (ix2 r u) = v (ix2 r c) :=
  slice2_axis1_apply o v h r u c (by have := u.isLt; omega)

/-- Row o of a [3, 1024] array, cut out as a [1, 1024] row, reads at (u, q) the array at (c, q), c the coordinate o. -/
theorem slice_row_apply {α : Type} (o : Nat) (v : S3x1024.Idx → α) (h : S3x1024.Slices ![o, 0] S1x1024)
    (u : Fin 1) (q : Fin 1024) (c : Fin 3) (hc : c.val = o) :
    extractStridedSlice S1x1024 ![o, 0] v h (ix2 u q) = v (ix2 c q) :=
  slice2_axis0_apply o v h u q c (by have := u.isLt; omega)

/-- One coordinate's product tile: column c of the first array broadcast along the second axis, times row c of the
    second array's transpose broadcast along the first axis, reads at (r, q) the product v[r, c] · w[q, c]. -/
theorem coord_prod_apply (o : Nat) (v w : FVec Ideal S1024x3 .f32)
    (hs : S1024x3.Slices ![0, o] S1024x1) (hb : S1024x1.Broadcasts S1024x1024)
    (ht : S1024x3.Transposes [1, 0] S3x1024) (hs' : S3x1024.Slices ![o, 0] S1x1024)
    (hb' : S1x1024.Broadcasts S1024x1024) (r q : Fin 1024) (c : Fin 3) (hc : c.val = o) :
    broadcastTo S1024x1024 (extractStridedSlice S1024x1 ![0, o] v hs) hb (ix2 r q)
        * broadcastTo S1024x1024 (extractStridedSlice S1x1024 ![o, 0] (transpose S3x1024 [1, 0] w ht) hs') hb' (ix2 r q)
      = v (ix2 r c) * w (ix2 q c) := by
  refine congrArg₂ (· * ·) ?_ ?_
  · refine (bcast_col_apply _ hb r q).trans ?_
    exact slice_col_apply o v hs r 0 c hc
  · refine (broadcastTo_1b_ab_apply _ hb' r q).trans ?_
    refine (slice_row_apply o _ hs' 0 q c hc).trans ?_
    exact transpose_ix2_apply w ht c q

/-- The squared norms of the first array's points, as a column broadcast along the second axis: at (r, q), the sum over
    the coordinates of v[r, ·]². -/
theorem sqnorm_rows_apply (v : FVec Ideal S1024x3 .f32) (h : S1024x3.Reduces [1] S1024) (hφ : FKind.Formats .f32)
    (hacc : (0x00000000#32 : BitVec 32) = FKind.add.neutral .f32 hφ) (hc : S1024.ShapeCasts S1024x1)
    (hb : S1024x1.Broadcasts S1024x1024) (r q : Fin 1024) :
    broadcastTo S1024x1024
        (shapeCast S1024x1 (multiReduction (F := Ideal) .add [1] S1024 (mulf v v) 0x00000000#32 h hφ hacc) hc) hb (ix2 r q)
      = ∑ d : Fin 3, v (ix2 r d) * v (ix2 r d) := by
  refine (bcast_col_apply _ hb r q).trans ?_
  refine (col_of_vec_apply _ hc r 0).trans ?_
  exact lane_sum_apply (mulf v v) h hφ hacc r

/-- The squared norms of the second array's points, as a column turned into a row and broadcast along the first axis:
    at (r, q), the sum over the coordinates of v[q, ·]². -/
theorem sqnorm_cols_apply (v : FVec Ideal S1024x3 .f32) (h : S1024x3.Reduces [1] S1024) (hφ : FKind.Formats .f32)
    (hacc : (0x00000000#32 : BitVec 32) = FKind.add.neutral .f32 hφ) (hc : S1024.ShapeCasts S1024x1)
    (ht : S1024x1.Transposes [1, 0] S1x1024) (hb : S1x1024.Broadcasts S1024x1024) (r q : Fin 1024) :
    broadcastTo S1024x1024
        (transpose S1x1024 [1, 0]
          (shapeCast S1024x1 (multiReduction (F := Ideal) .add [1] S1024 (mulf v v) 0x00000000#32 h hφ hacc) hc) ht)
        hb (ix2 r q)
      = ∑ d : Fin 3, v (ix2 q d) * v (ix2 q d) := by
  refine (broadcastTo_1b_ab_apply _ hb r q).trans ?_
  refine (transpose_ix2_apply _ ht 0 q).trans ?_
  refine (col_of_vec_apply _ hc q 0).trans ?_
  exact lane_sum_apply (mulf v v) h hφ hacc q

/-- The squared distance between point r of the first block and point q of the second, expanded; the factor 2 is
    kept as the float word the body carries. -/
def tile (x0 x1 : Vec Ideal S1x1024x3 .f32) (r q : Fin 1024) : EReal :=
  ((∑ d : Fin 3, x0 (ix3 0 r d) * x0 (ix3 0 r d)) + (∑ d : Fin 3, x1 (ix3 0 q d) * x1 (ix3 0 q d)))
    - Ideal.ofBits .f32 0x40000000#32 * ∑ d : Fin 3, x0 (ix3 0 r d) * x1 (ix3 0 q d)

/-- The body's tile payload, read at entry (r, q), is the squared distance of the two blocks' points r and q. -/
theorem pay5_apply (x0 x1 : Vec Ideal S1x1024x3 .f32) (r q : Fin 1024) :
    k0_pay5 (F := Ideal) x0 x1 (ix2 r q) = tile x0 x1 r q := by
  unfold k0_pay5 tile
  simp only [subf_apply, addf_apply, mulf_apply, broadcast_apply]
  have e0 : ∀ (i : Fin 1024) (d : Fin 3), shapeCast S1024x3 x0 shapeCasts_S1x1024x3_S1024x3 (ix2 i d) = x0 (ix3 0 i d) :=
    fun i d => shapeCast_1ab_ab_apply x0 _ i d
  have e1 : ∀ (i : Fin 1024) (d : Fin 3), shapeCast S1024x3 x1 shapeCasts_S1x1024x3_S1024x3 (ix2 i d) = x1 (ix3 0 i d) :=
    fun i d => shapeCast_1ab_ab_apply x1 _ i d
  refine congrArg₂ (· - ·) (congrArg₂ (· + ·) ?_ ?_) (congrArg₂ (· * ·) rfl ?_)
  · refine (sqnorm_rows_apply _ _ _ _ _ _ r q).trans ?_
    exact Finset.sum_congr rfl fun d _ => congrArg₂ (· * ·) (e0 r d) (e0 r d)
  · refine (sqnorm_cols_apply _ _ _ _ _ _ _ r q).trans ?_
    exact Finset.sum_congr rfl fun d _ => congrArg₂ (· * ·) (e1 q d) (e1 q d)
  · refine Eq.trans ?_ (Fin.sum_univ_three _).symm
    refine congrArg₂ (· + ·) (congrArg₂ (· + ·) ?_ ?_) ?_
    · refine (congrArg₂ (· + ·) Ideal.ofBits_zero_f32 (coord_prod_apply 0 _ _ _ _ _ _ _ r q 0 rfl)).trans ?_
      exact (zero_add _).trans (congrArg₂ (· * ·) (e0 r 0) (e1 q 0))
    · exact (coord_prod_apply 1 _ _ _ _ _ _ _ r q 1 rfl).trans (congrArg₂ (· * ·) (e0 r 1) (e1 q 1))
    · exact (coord_prod_apply 2 _ _ _ _ _ _ _ r q 2 rfl).trans (congrArg₂ (· * ·) (e0 r 2) (e1 q 2))

end Cert.KernelIdeal.PointValue

end
-- ==== Proof.ChamferSpec.lean ====
/-
  The chamfer distance between two clouds of 8192 points of ℝ̄³ per batch, as a specification over the extended
  reals, and the order in which a tiled sweep discovers it.

  dist b n k is the squared distance ‖x₁[b,n]‖² + ‖x₂[b,k]‖² − 2·⟨x₁[b,n], x₂[b,k]⟩ in the expanded form both programs
  compute. A sweep visits the 8 × 8 tiles of 1024 × 1024 pairs (n, k) in row-major order; after step s (0 ≤ s < 64) it
  has seen the pairs whose tile (n / 1024, k / 1024) has row-major number ≤ s. The running row minimum rowMin s n is the
  minimum of dist over the seen k, the running column minimum colMin s k over the seen n. One more step folds one tile
  in (rowMin_succ, colMin_succ); after the last step every pair has been seen (rowMin_last, colMin_last).
-/
import Idealize.ShloMosaic.Lib.ValueIdx

noncomputable section

namespace Chamfer

open Idealize.ShloMosaic Idealize.ShloMosaic.ValueIdx

/-- A batch of point clouds: 4 × 8192 points of three extended-real coordinates. -/
abbrev Cloud : Type := (⟨3, ![4, 8192, 3]⟩ : Shape).Idx → EReal

/-- The squared norm of point n of batch b. -/
def sqn (X : Cloud) (b : Fin 4) (n : Fin 8192) : EReal := ∑ d : Fin 3, X (ix3 b n d) * X (ix3 b n d)

/-- The squared distance between point n of the first cloud and point k of the second, expanded. The factor 2 is
    kept as the float word both programs carry. -/
def dist (X1 X2 : Cloud) (b : Fin 4) (n k : Fin 8192) : EReal :=
  (sqn X1 b n + sqn X2 b k) - Ideal.ofBits .f32 0x40000000#32 * ∑ d : Fin 3, X1 (ix3 b n d) * X2 (ix3 b k d)

/-- The pair (n, k) lies in a tile the sweep has visited by step s. -/
def Seen (s : ℕ) (n k : Fin 8192) : Prop := n.val / 1024 * 8 + k.val / 1024 ≤ s

instance (s : ℕ) (n k : Fin 8192) : Decidable (Seen s n k) := by unfold Seen; infer_instance

/-- The running minimum over the second cloud after step s. -/
def rowMin (X1 X2 : Cloud) (b : Fin 4) (s : ℕ) (n : Fin 8192) : EReal :=
  (Finset.univ.filter fun k => Seen s n k).inf (dist X1 X2 b n)

/-- The running minimum over the first cloud after step s. -/
def colMin (X1 X2 : Cloud) (b : Fin 4) (s : ℕ) (k : Fin 8192) : EReal :=
  (Finset.univ.filter fun n => Seen s n k).inf (fun n => dist X1 X2 b n k)

/-- Point q of tile j along an axis of 8192 = 8 · 1024. -/
def inTile (j : ℕ) (hj : j < 8) (q : Fin 1024) : Fin 8192 := ⟨j * 1024 + q.val, by omega⟩

/-- The infimum over the points of tile j is the infimum over the tile's 1024 offsets. -/
theorem inf_tile (f : Fin 8192 → EReal) (j : ℕ) (hj : j < 8) :
    (Finset.univ.filter fun k : Fin 8192 => k.val / 1024 = j).inf f
      = Finset.univ.inf fun q : Fin 1024 => f (inTile j hj q) := by
  apply le_antisymm
  · apply Finset.le_inf
    intro q _
    apply Finset.inf_le
    simp only [Finset.mem_filter, Finset.mem_univ, true_and, inTile]
    have := q.isLt
    omega
  · apply Finset.le_inf
    intro k hk
    simp only [Finset.mem_filter, Finset.mem_univ, true_and] at hk
    have hlt : k.val % 1024 < 1024 := Nat.mod_lt _ (by omega)
    have hk' : inTile j hj ⟨k.val % 1024, hlt⟩ = k := by
      apply Fin.ext
      simp only [inTile]
      omega
    have h := Finset.inf_le (f := fun q : Fin 1024 => f (inTile j hj q)) (Finset.mem_univ ⟨k.val % 1024, hlt⟩)
    simpa only [hk'] using h

variable (X1 X2 : Cloud) (b : Fin 4)

/-- Step 0 has seen the one tile (0, 0). -/
theorem rowMin_zero (n : Fin 8192) :
    rowMin X1 X2 b 0 n = if n.val / 1024 = 0 then min ⊤ (Finset.univ.inf fun q : Fin 1024 => dist X1 X2 b n (inTile 0 (by omega) q)) else ⊤ := by
  unfold rowMin
  split_ifs with h
  · have : (Finset.univ.filter fun k => Seen 0 n k) = (Finset.univ.filter fun k : Fin 8192 => k.val / 1024 = 0) := by
      ext k
      simp only [Finset.mem_filter, Finset.mem_univ, true_and]
      unfold Seen
      omega
    rw [this, inf_tile _ 0 (by omega), min_top_left]
  · have : (Finset.univ.filter fun k => Seen 0 n k) = ∅ := by
      ext k
      simp only [Finset.mem_filter, Finset.mem_univ, true_and, Finset.notMem_empty, iff_false]
      unfold Seen
      omega
    rw [this, Finset.inf_empty]

/-- Step s + 1 adds the tile ((s + 1) / 8, (s + 1) % 8): only the rows of that tile change. -/
theorem rowMin_succ (s : ℕ) (hs : s + 1 < 64) (n : Fin 8192) :
    rowMin X1 X2 b (s + 1) n = if n.val / 1024 = (s + 1) / 8
      then min (rowMin X1 X2 b s n) (Finset.univ.inf fun q : Fin 1024 => dist X1 X2 b n (inTile ((s + 1) % 8) (Nat.mod_lt _ (by omega)) q))
      else rowMin X1 X2 b s n := by
  unfold rowMin
  split_ifs with h
  · have : (Finset.univ.filter fun k => Seen (s + 1) n k)
        = (Finset.univ.filter fun k => Seen s n k) ∪ (Finset.univ.filter fun k : Fin 8192 => k.val / 1024 = (s + 1) % 8) := by
      ext k
      simp only [Finset.mem_filter, Finset.mem_univ, true_and, Finset.mem_union]
      unfold Seen
      omega
    rw [this, Finset.inf_union, inf_tile _ _ (Nat.mod_lt _ (by omega))]
  · have : (Finset.univ.filter fun k => Seen (s + 1) n k) = (Finset.univ.filter fun k => Seen s n k) := by
      ext k
      simp only [Finset.mem_filter, Finset.mem_univ, true_and]
      unfold Seen
      omega
    rw [this]

/-- After the last step every pair has been seen. -/
theorem rowMin_last (n : Fin 8192) : rowMin X1 X2 b 63 n = Finset.univ.inf (dist X1 X2 b n) := by
  unfold rowMin
  have : (Finset.univ.filter fun k => Seen 63 n k) = Finset.univ := by
    ext k
    simp only [Finset.mem_filter, Finset.mem_univ, true_and, iff_true]
    unfold Seen
    omega
  rw [this]

theorem colMin_zero (k : Fin 8192) :
    colMin X1 X2 b 0 k = if k.val / 1024 = 0 then min ⊤ (Finset.univ.inf fun r : Fin 1024 => dist X1 X2 b (inTile 0 (by omega) r) k) else ⊤ := by
  unfold colMin
  split_ifs with h
  · have : (Finset.univ.filter fun n => Seen 0 n k) = (Finset.univ.filter fun n : Fin 8192 => n.val / 1024 = 0) := by
      ext n
      simp only [Finset.mem_filter, Finset.mem_univ, true_and]
      unfold Seen
      omega
    rw [this, inf_tile _ 0 (by omega), min_top_left]
  · have : (Finset.univ.filter fun n => Seen 0 n k) = ∅ := by
      ext n
      simp only [Finset.mem_filter, Finset.mem_univ, true_and, Finset.notMem_empty, iff_false]
      unfold Seen
      omega
    rw [this, Finset.inf_empty]

/-- Step s + 1 adds the tile ((s + 1) / 8, (s + 1) % 8): only the columns of that tile change. -/
theorem colMin_succ (s : ℕ) (hs : s + 1 < 64) (k : Fin 8192) :
    colMin X1 X2 b (s + 1) k = if k.val / 1024 = (s + 1) % 8
      then min (colMin X1 X2 b s k) (Finset.univ.inf fun r : Fin 1024 => dist X1 X2 b (inTile ((s + 1) / 8) (by omega) r) k)
      else colMin X1 X2 b s k := by
  unfold colMin
  split_ifs with h
  · have : (Finset.univ.filter fun n => Seen (s + 1) n k)
        = (Finset.univ.filter fun n => Seen s n k) ∪ (Finset.univ.filter fun n : Fin 8192 => n.val / 1024 = (s + 1) / 8) := by
      ext n
      simp only [Finset.mem_filter, Finset.mem_univ, true_and, Finset.mem_union]
      unfold Seen
      omega
    rw [this, Finset.inf_union, inf_tile _ _ (by omega)]
  · have : (Finset.univ.filter fun n => Seen (s + 1) n k) = (Finset.univ.filter fun n => Seen s n k) := by
      ext n
      simp only [Finset.mem_filter, Finset.mem_univ, true_and]
      unfold Seen
      omega
    rw [this]

theorem colMin_last (k : Fin 8192) : colMin X1 X2 b 63 k = Finset.univ.inf (fun n => dist X1 X2 b n k) := by
  unfold colMin
  have : (Finset.univ.filter fun n => Seen 63 n k) = Finset.univ := by
    ext n
    simp only [Finset.mem_filter, Finset.mem_univ, true_and, iff_true]
    unfold Seen
    omega
  rw [this]

/-- A fold of min from +∞ is the infimum. -/
theorem fold_min_top {ι : Type} (s : Finset ι) (f : ι → EReal) : s.fold min ⊤ f = s.inf f := by
  classical
  induction s using Finset.induction_on with
  | empty => simp
  | insert a s ha ih => rw [Finset.fold_insert ha, Finset.inf_insert, ih]

/-- The float word of +∞ is the top of the extended reals. -/
theorem ofBits_inf : Ideal.ofBits .f32 0x7F800000#32 = (⊤ : EReal) := by
  simp [Ideal.ofBits, Ideal.ieee]

end Chamfer

end
-- ==== Proof.IdealPointValue.lean ====
/-
  What one grid point does to the two running minima, entry by entry, over the extended reals.
  At point (b, i, j) the body folds its tile of squared distances into the slice [1024·i, 1024·i + 1024) of the running
  row minimum — entry p of that slice becomes the minimum of its old value and of the tile's row p mod 1024 — and into
  the slice [1024·j, 1024·j + 1024) of the running column minimum, likewise with the tile's columns. Entries outside
  the slice keep their value. At the first point of a batch the old values are +∞.
-/
import proofs.«111738_j2542620639339_1_alg».proof.Proof.IdealBody
import proofs.«111738_j2542620639339_1_alg».proof.Proof.IdealTile
import proofs.«111738_j2542620639339_1_alg».proof.Proof.ChamferSpec
import Idealize.ShloMosaic.PureOps.Reduce

set_option maxRecDepth 16384

noncomputable section

namespace Cert.KernelIdeal.PointValue

open Idealize.ShloMosaic Idealize.ShloMosaic.TcCoe Idealize.ShloMosaic.ValueIdx Idealize.SL.Sem
open Cert.KernelIdeal Cert.KernelIdeal.Gen Cert.KernelIdeal.Body

/-- The position of entry p inside its slice of 1024. -/
abbrev sub (p : Fin 8192) : Fin 1024 := ⟨p.val % 1024, Nat.mod_lt _ (by norm_num)⟩

variable (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole)

theorem hz3 : (![0, 0, 0] : Fin 3 → Nat) = fun _ => 0 := by
  funext a; match a with | ⟨0, _⟩ => rfl | ⟨1, _⟩ => rfl | ⟨2, _⟩ => rfl

/-- The row slice starts at 1024·i. -/
theorem off1_eq : k0_off1 i = ![0, 0, (i 1).val * 1024] := by
  have h : ∀ a : Fin 8, (Scalar.indexCast (Scalar.muli (BitVec.ofNat 32 a.val) 1024#32)).toNat = a.val * 1024 := by decide
  unfold k0_off1; dsimp only; rw [h (i 1)]
/-- The column slice starts at 1024·j. -/
theorem off2_eq : k0_off2 i = ![0, 0, (i 2).val * 1024] := by
  have h : ∀ a : Fin 8, (Scalar.indexCast (Scalar.muli (BitVec.ofNat 32 a.val) 1024#32)).toNat = a.val * 1024 := by decide
  unfold k0_off2; dsimp only; rw [h (i 2)]

/-- The one piece an update point stores into the row buffer. -/
theorem updateRun_row (hc0 : ¬isReset i) (x0 x1 : Vec Ideal S1x1024x3 .f32) (xo2 xo3 : Vec Ideal S1x1x8192 .f32) :
    (updateRun (F := Ideal) c i arg3 harg3 arg4 harg4 arg5 harg5 arg6 harg6 hc0 x0 x1 xo2 xo3).1
      = [⟨Rect.unit (s := S1x1x8192) (k0_off1 i) S1x1x1024.size (k0_off1_inb i),
          k0_pay1 (k0_pay5 x0 x1) (View.ld xo2 (Rect.unit (s := S1x1x8192) (k0_off1 i) S1x1x1024.size (k0_off1_inb i)))⟩] := by
  unfold updateRun
  dsimp only
  sl_unfold_run_names
  simp only [View.readAt_eq_ld, harg3.read_unread, harg4.read_unread, harg5.read_unread, View.ld_unit_zero (S := S1x1024x3) hz3]

/-- A vector of 1024 entries viewed as a [1, 1, 1024] block reads, at (0, 0, r), entry r. -/
theorem cast_row_block {α : Type} (x : (⟨1, ![1024]⟩ : Shape).Idx → α) (h : (⟨1, ![1024]⟩ : Shape).ShapeCasts ⟨3, ![1, 1, 1024]⟩)
    (u v : Fin 1) (r : Fin 1024) : shapeCast ⟨3, ![1, 1, 1024]⟩ x h (ix3 u v r) = x (ix1 r) :=
  shapeCast_apply x h _ _ (by
    have hu : u.val = 0 := by omega
    have hv : v.val = 0 := by omega
    rw [Shape.rowMajor_val_one, Shape.rowMajor_val_three]
    show r.val = (u.val * 1 + v.val) * 1024 + r.val
    rw [hu, hv]; omega)

/-- A [1, 1, 1024] block viewed as a vector reads, at r, the block's entry (0, 0, r). -/
theorem cast_block_row {α : Type} (x : (⟨3, ![1, 1, 1024]⟩ : Shape).Idx → α) (h : (⟨3, ![1, 1, 1024]⟩ : Shape).ShapeCasts ⟨1, ![1024]⟩)
    (r : Fin 1024) : shapeCast ⟨1, ![1024]⟩ x h (ix1 r) = x (ix3 (0 : Fin 1) (0 : Fin 1) r) :=
  shapeCast_apply x h _ _ (by
    rw [Shape.rowMajor_val_one, Shape.rowMajor_val_three]
    show (0 * 1 + 0) * 1024 + r.val = r.val
    omega)

/-- A minimum along the tile's rows: the lane reduction over axis 1 from +∞, read at row r. -/
theorem rowReduce_apply (v41 : FVec Ideal S1024x1024 .f32) (r : Fin 1024) :
    multiReduction (F := Ideal) .minimumf [1] S1024 v41 0x7F800000#32 reduces_S1024x1024_S1024 (.inl rfl) rfl (ix1 r)
      = Finset.univ.inf fun q : Fin 1024 => v41 (ix2 r q) := by
  refine (multiReduction_minimumf_eq_fold v41 0x7F800000#32 reduces_S1024x1024_S1024 (.inl rfl) rfl (ix1 r)).trans ?_
  refine ((reduces_S1024x1024_S1024).fold_filter_drop_single _ _ v41 (ix1 r)).trans ?_
  show (Finset.univ : Finset (Fin 1024)).fold min (Ideal.ofBits .f32 0x7F800000#32) _ = _
  rw [Chamfer.ofBits_inf]
  refine (Chamfer.fold_min_top _ _).trans ?_
  refine Finset.inf_congr rfl fun q _ => ?_
  exact congrArg v41 (funext fun a => Fin.ext (by match a with | ⟨0, _⟩ => rfl | ⟨1, _⟩ => rfl))

/-- A minimum along the tile's columns: the reduction over axis 0 from +∞, read at column q. -/
theorem colReduce_apply (v41 : FVec Ideal S1024x1024 .f32) (q : Fin 1024) :
    multiReduction (F := Ideal) .minimumf [0] S1024 v41 0x7F800000#32 reduces_S1024x1024_S1024_2 (.inl rfl) rfl (ix1 q)
      = Finset.univ.inf fun r : Fin 1024 => v41 (ix2 r q) := by
  refine (multiReduction_minimumf_eq_fold v41 0x7F800000#32 reduces_S1024x1024_S1024_2 (.inl rfl) rfl (ix1 q)).trans ?_
  refine ((reduces_S1024x1024_S1024_2).fold_filter_drop_single _ _ v41 (ix1 q)).trans ?_
  show (Finset.univ : Finset (Fin 1024)).fold min (Ideal.ofBits .f32 0x7F800000#32) _ = _
  rw [Chamfer.ofBits_inf]
  refine (Chamfer.fold_min_top _ _).trans ?_
  refine Finset.inf_congr rfl fun r _ => ?_
  exact congrArg v41 (funext fun a => Fin.ext (by match a with | ⟨0, _⟩ => rfl | ⟨1, _⟩ => rfl))

/-- The row payload at entry r of the slice: the old entry against the minimum of the tile's row r. -/
theorem pay1_apply (v41 : FVec Ideal S1024x1024 .f32) (v47 : Vec Ideal S1x1x1024 .f32) (r : Fin 1024) :
    k0_pay1 (F := Ideal) v41 v47 (ix3 0 0 r) = min (v47 (ix3 0 0 r)) (Finset.univ.inf fun q : Fin 1024 => v41 (ix2 r q)) := by
  unfold k0_pay1
  dsimp only
  refine (cast_row_block _ _ 0 0 r).trans ?_
  refine (minimumf_apply _ _ _).trans ?_
  refine congrArg₂ min ?_ ?_
  · exact cast_block_row _ _ r
  · exact rowReduce_apply v41 r

/-- The column payload at entry q of the slice. -/
theorem pay2_apply (v41 : FVec Ideal S1024x1024 .f32) (v56 : Vec Ideal S1x1x1024 .f32) (q : Fin 1024) :
    k0_pay2 (F := Ideal) v41 v56 (ix3 0 0 q) = min (v56 (ix3 0 0 q)) (Finset.univ.inf fun r : Fin 1024 => v41 (ix2 r q)) := by
  unfold k0_pay2
  dsimp only
  refine (cast_row_block _ _ 0 0 q).trans ?_
  refine (minimumf_apply _ _ _).trans ?_
  refine congrArg₂ min ?_ ?_
  · exact cast_block_row _ _ q
  · exact colReduce_apply v41 q

/-- Entry p of a row lies in the slice starting at 1024·a exactly when p / 1024 = a; it is then entry p mod 1024 of it. -/
theorem mem_slice_iff {off : Fin 3 → Nat} {a : ℕ} (ha : a < 8) (hoff : off = ![0, 0, a * 1024]) (inb : ∀ b, off b + S1x1x1024.size b ≤ S1x1x8192.size b) (p : Fin 8192) :
    (ix3 0 0 p : S1x1x8192.Idx) ∈ (Rect.unit (s := S1x1x8192) off S1x1x1024.size inb).set ↔ p.val / 1024 = a := by
  subst hoff
  rw [Rect.mem_set_unit]
  constructor
  · intro h
    have h2 := h (2 : Fin 3)
    have e1 : ((![0, 0, a * 1024] : Fin 3 → Nat) (2 : Fin 3)) = a * 1024 := rfl
    have e2 : (S1x1x1024.size (2 : Fin 3)) = 1024 := rfl
    have e3 : ((ix3 (0 : Fin 1) (0 : Fin 1) p : S1x1x8192.Idx) (2 : Fin 3)).val = p.val := rfl
    rw [e1, e2, e3] at h2
    omega
  · intro h b
    match b with
    | ⟨0, _⟩ => exact ⟨Nat.le_refl _, Nat.one_pos⟩
    | ⟨1, _⟩ => exact ⟨Nat.le_refl _, Nat.one_pos⟩
    | ⟨2, _⟩ =>
      show a * 1024 ≤ p.val ∧ p.val < a * 1024 + 1024
      omega

theorem emb_slice {off : Fin 3 → Nat} {a : ℕ} (hoff : off = ![0, 0, a * 1024]) (inb : ∀ b, off b + S1x1x1024.size b ≤ S1x1x8192.size b) (p : Fin 8192)
    (h : p.val / 1024 = a) :
    (Rect.unit (s := S1x1x8192) off S1x1x1024.size inb).emb (ix3 0 0 (sub p)) = (ix3 0 0 p : S1x1x8192.Idx) := by
  subst hoff
  funext b
  apply Fin.ext
  rw [Rect.emb_apply]
  match b with
  | ⟨0, _⟩ => rfl
  | ⟨1, _⟩ => rfl
  | ⟨2, _⟩ =>
    show a * 1024 + 1 * (p.val % 1024) = p.val
    omega

theorem updateRow_apply (hc0 : ¬isReset i) (x0 x1 : Vec Ideal S1x1024x3 .f32) (xo2 xo3 : Vec Ideal S1x1x8192 .f32) (p : Fin 8192) :
    updateRow c i arg3 harg3 arg4 harg4 arg5 harg5 arg6 harg6 hc0 x0 x1 xo2 xo3 (ix3 0 0 p)
      = if p.val / 1024 = (i 1).val then min (xo2 (ix3 0 0 p)) (Finset.univ.inf fun q : Fin 1024 => tile x0 x1 (sub p) q)
        else xo2 (ix3 0 0 p) := by
  unfold updateRow
  rw [updateRun_row c i arg3 harg3 arg4 harg4 arg5 harg5 arg6 harg6 hc0 x0 x1 xo2 xo3]
  by_cases h : p.val / 1024 = (i 1).val
  · rw [if_pos h, ← emb_slice (off1_eq i) (k0_off1_inb i) p h, View.read_writes_cons_emb]
    refine (pay1_apply _ _ (sub p)).trans ?_
    refine congrArg₂ min rfl ?_
    exact Finset.inf_congr rfl fun q _ => pay5_apply x0 x1 (sub p) q
  · rw [if_neg h, View.writes_cons, View.read_slice_write_of_not_mem _ _ _ _ (by
      rw [Rect.map_emb_univ, mem_slice_iff (i 1).isLt (off1_eq i)]; exact h), View.writes_nil, harg5.read_unread]

/-- The one piece an update point stores into the column buffer. -/
theorem updateRun_col (hc0 : ¬isReset i) (x0 x1 : Vec Ideal S1x1024x3 .f32) (xo2 xo3 : Vec Ideal S1x1x8192 .f32) :
    (updateRun (F := Ideal) c i arg3 harg3 arg4 harg4 arg5 harg5 arg6 harg6 hc0 x0 x1 xo2 xo3).2.1
      = [⟨Rect.unit (s := S1x1x8192) (k0_off2 i) S1x1x1024.size (k0_off2_inb i),
          k0_pay2 (k0_pay5 x0 x1) (View.ld xo3 (Rect.unit (s := S1x1x8192) (k0_off2 i) S1x1x1024.size (k0_off2_inb i)))⟩] := by
  unfold updateRun
  dsimp only
  sl_unfold_run_names
  simp only [View.readAt_eq_ld, harg3.read_unread, harg4.read_unread, harg6.read_unread, View.ld_unit_zero (S := S1x1024x3) hz3]

theorem updateCol_apply (hc0 : ¬isReset i) (x0 x1 : Vec Ideal S1x1024x3 .f32) (xo2 xo3 : Vec Ideal S1x1x8192 .f32) (p : Fin 8192) :
    updateCol c i arg3 harg3 arg4 harg4 arg5 harg5 arg6 harg6 hc0 x0 x1 xo2 xo3 (ix3 0 0 p)
      = if p.val / 1024 = (i 2).val then min (xo3 (ix3 0 0 p)) (Finset.univ.inf fun r : Fin 1024 => tile x0 x1 r (sub p))
        else xo3 (ix3 0 0 p) := by
  unfold updateCol
  rw [updateRun_col c i arg3 harg3 arg4 harg4 arg5 harg5 arg6 harg6 hc0 x0 x1 xo2 xo3]
  by_cases h : p.val / 1024 = (i 2).val
  · rw [if_pos h, ← emb_slice (off2_eq i) (k0_off2_inb i) p h, View.read_writes_cons_emb]
    refine (pay2_apply _ _ (sub p)).trans ?_
    refine congrArg₂ min rfl ?_
    exact Finset.inf_congr rfl fun r _ => pay5_apply x0 x1 r (sub p)
  · rw [if_neg h, View.writes_cons, View.read_slice_write_of_not_mem _ _ _ _ (by
      rw [Rect.map_emb_univ, mem_slice_iff (i 2).isLt (off2_eq i)]; exact h), View.writes_nil, harg6.read_unread]

/-- The +∞ fill a reset point stores first. -/
theorem pay3_apply (j : S1x1x8192.Idx) : k0_pay3 (F := Ideal) j = (⊤ : EReal) := by
  unfold k0_pay3; exact Chamfer.ofBits_inf
theorem pay4_apply (j : S1x1x8192.Idx) : k0_pay4 (F := Ideal) j = (⊤ : EReal) := by
  unfold k0_pay4; exact Chamfer.ofBits_inf

/-- The two pieces a reset point stores into the row buffer: the +∞ fill, then the slice folded over it. -/
theorem resetRun_row (hc0 : isReset i) (x0 x1 : Vec Ideal S1x1024x3 .f32) :
    (resetRun (F := Ideal) c i arg3 harg3 arg4 harg4 arg5 harg5 arg6 harg6 hc0 x0 x1).1
      = [⟨Rect.unit (s := S1x1x8192) (k0_off1 i) S1x1x1024.size (k0_off1_inb i),
          k0_pay1 (k0_pay5 x0 x1) (View.ld (k0_pay3 (F := Ideal)) (Rect.unit (s := S1x1x8192) (k0_off1 i) S1x1x1024.size (k0_off1_inb i)))⟩,
         ⟨Rect.unit (s := S1x1x8192) ![0, 0, 0] S1x1x8192.size inb_S1x1x8192_S1x1x8192_0_0_0, k0_pay3 (F := Ideal)⟩] := by
  unfold resetRun
  dsimp only
  sl_unfold_run_names
  simp only [View.readAt_eq_ld, harg3.read_unread, harg4.read_unread, View.ld_unit_zero (S := S1x1024x3) hz3,
    View.read_writes_junk_eq_canon, View.canon_unit_zero (S := S1x1x8192) hz3]

theorem resetRun_col (hc0 : isReset i) (x0 x1 : Vec Ideal S1x1024x3 .f32) :
    (resetRun (F := Ideal) c i arg3 harg3 arg4 harg4 arg5 harg5 arg6 harg6 hc0 x0 x1).2.1
      = [⟨Rect.unit (s := S1x1x8192) (k0_off2 i) S1x1x1024.size (k0_off2_inb i),
          k0_pay2 (k0_pay5 x0 x1) (View.ld (k0_pay4 (F := Ideal)) (Rect.unit (s := S1x1x8192) (k0_off2 i) S1x1x1024.size (k0_off2_inb i)))⟩,
         ⟨Rect.unit (s := S1x1x8192) ![0, 0, 0] S1x1x8192.size inb_S1x1x8192_S1x1x8192_0_0_0, k0_pay4 (F := Ideal)⟩] := by
  unfold resetRun
  dsimp only
  sl_unfold_run_names
  simp only [View.readAt_eq_ld, harg3.read_unread, harg4.read_unread, View.ld_unit_zero (S := S1x1024x3) hz3,
    View.read_writes_junk_eq_canon, View.canon_unit_zero (S := S1x1x8192) hz3]

theorem resetRow_apply (hc0 : isReset i) (x0 x1 : Vec Ideal S1x1024x3 .f32) (p : Fin 8192) :
    resetRow c i arg3 harg3 arg4 harg4 arg5 harg5 arg6 harg6 hc0 x0 x1 (ix3 0 0 p)
      = if p.val / 1024 = (i 1).val then min (⊤ : EReal) (Finset.univ.inf fun q : Fin 1024 => tile x0 x1 (sub p) q)
        else (⊤ : EReal) := by
  unfold resetRow
  rw [resetRun_row c i arg3 harg3 arg4 harg4 arg5 harg5 arg6 harg6 hc0 x0 x1]
  by_cases h : p.val / 1024 = (i 1).val
  · rw [if_pos h, ← emb_slice (off1_eq i) (k0_off1_inb i) p h, View.read_writes_cons_emb]
    refine (pay1_apply _ _ (sub p)).trans ?_
    refine congrArg₂ min (pay3_apply _) ?_
    exact Finset.inf_congr rfl fun q _ => pay5_apply x0 x1 (sub p) q
  · rw [if_neg h, View.writes_cons, View.read_slice_write_of_not_mem _ _ _ _ (by
      rw [Rect.map_emb_univ, mem_slice_iff (i 1).isLt (off1_eq i)]; exact h), View.read_writes_junk_apply_eq_canon,
      View.canon_unit_zero (S := S1x1x8192) hz3]
    exact pay3_apply _

theorem resetCol_apply (hc0 : isReset i) (x0 x1 : Vec Ideal S1x1024x3 .f32) (p : Fin 8192) :
    resetCol c i arg3 harg3 arg4 harg4 arg5 harg5 arg6 harg6 hc0 x0 x1 (ix3 0 0 p)
      = if p.val / 1024 = (i 2).val then min (⊤ : EReal) (Finset.univ.inf fun r : Fin 1024 => tile x0 x1 r (sub p))
        else (⊤ : EReal) := by
  unfold resetCol
  rw [resetRun_col c i arg3 harg3 arg4 harg4 arg5 harg5 arg6 harg6 hc0 x0 x1]
  by_cases h : p.val / 1024 = (i 2).val
  · rw [if_pos h, ← emb_slice (off2_eq i) (k0_off2_inb i) p h, View.read_writes_cons_emb]
    refine (pay2_apply _ _ (sub p)).trans ?_
    refine congrArg₂ min (pay4_apply _) ?_
    exact Finset.inf_congr rfl fun r _ => pay5_apply x0 x1 r (sub p)
  · rw [if_neg h, View.writes_cons, View.read_slice_write_of_not_mem _ _ _ _ (by
      rw [Rect.map_emb_univ, mem_slice_iff (i 2).isLt (off2_eq i)]; exact h), View.read_writes_junk_apply_eq_canon,
      View.canon_unit_zero (S := S1x1x8192) hz3]
    exact pay4_apply _

end Cert.KernelIdeal.PointValue

end
-- ==== Proof.IdealInvariant.lean ====
/-
  The running minima after every grid point, in closed form.
  A batch b is the stretch of 64 points 64·b … 64·b + 63; point t of it works on the tile (i, j) = (t / 8 mod 8, t mod 8)
  of the 8 × 8 tiles of pairs. The point's two input blocks are rows 1024·i … of the first cloud and rows 1024·j … of
  the second, so its tile of squared distances is the specification's distance on that tile of pairs. By induction on
  t: after point t the row buffer holds the specification's running row minimum after step t mod 64 of batch t / 64,
  and the column buffer the running column minimum.
-/
import proofs.«111738_j2542620639339_1_alg».proof.Proof.IdealPointValue

set_option maxRecDepth 16384

noncomputable section

namespace Cert.KernelIdeal.PointValue

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-- The two argument clouds on core c. -/
abbrev cloud1 (c : Dev nD) : Chamfer.Cloud := m ((c.tc : Thread nD τ).loc main_arg0)
abbrev cloud2 (c : Dev nD) : Chamfer.Cloud := m ((c.tc : Thread nD τ).loc main_arg1)

/-- The batch of point t. -/
abbrev batchOf (t : Fin cfg0.N) : Fin 4 := ⟨t.val / 64, by have := lt_of_lt_of_eq t.isLt (show cfg0.N = 256 from N_0); omega⟩

/-- The grid coordinates of point t: batch, row tile, column tile. -/
theorem coords_val (t : Fin cfg0.N) :
    (grid0.coords t 0).val = t.val / 64 ∧ (grid0.coords t 1).val = t.val / 8 % 8 ∧ (grid0.coords t 2).val = t.val % 8 :=
  (by decide +kernel : ∀ t : Fin grid0.N,
    (grid0.coords t 0).val = t.val / 64 ∧ (grid0.coords t 1).val = t.val / 8 % 8 ∧ (grid0.coords t 2).val = t.val % 8) t

/-- The two input windows' block indices at point t, decided over the grid: the first cloud's block moves with the
    batch and the row tile, the second cloud's with the batch and the column tile. -/
theorem blockIdx_facts : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0 :=
  (by decide +kernel : ∀ t : Fin grid0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0)

/-- Point t's block of the first cloud: rows 1024·(t / 8 mod 8) … of batch t / 64. -/
theorem iblk0_apply (c : Dev nD) (t : Fin cfg0.N) (r : Fin 1024) (d : Fin 3) :
    iblk m c 0 t (ix3 0 r d) = cloud1 m c (ix3 (batchOf t) (Chamfer.inTile (t.val / 8 % 8) (Nat.mod_lt _ (by norm_num)) r) d) := by
  obtain ⟨e0, e1, e2, -, -, -⟩ := blockIdx_facts t
  show V m c main_arg0 (((cfg0.win 0).blk t).view.emb (ix3 0 r d)) = _
  rw [V_main_arg0]
  refine congrArg _ ?_
  funext a; apply Fin.ext
  match a with
  | ⟨0, _⟩ => show win0_0.index t (0 : Fin 3) * 1 + 1 * 0 = t.val / 64; omega
  | ⟨1, _⟩ => show win0_0.index t (1 : Fin 3) * 1024 + 1 * r.val = t.val / 8 % 8 * 1024 + r.val; omega
  | ⟨2, _⟩ => show win0_0.index t (2 : Fin 3) * 3 + 1 * d.val = d.val; omega

/-- Point t's block of the second cloud: rows 1024·(t mod 8) … of batch t / 64. -/
theorem iblk1_apply (c : Dev nD) (t : Fin cfg0.N) (q : Fin 1024) (d : Fin 3) :
    iblk m c 1 t (ix3 0 q d) = cloud2 m c (ix3 (batchOf t) (Chamfer.inTile (t.val % 8) (Nat.mod_lt _ (by norm_num)) q) d) := by
  obtain ⟨-, -, -, e0, e1, e2⟩ := blockIdx_facts t
  show V m c main_arg1 (((cfg0.win 1).blk t).view.emb (ix3 0 q d)) = _
  rw [V_main_arg1]
  refine congrArg _ ?_
  funext a; apply Fin.ext
  match a with
  | ⟨0, _⟩ => show win0_1.index t (0 : Fin 3) * 1 + 1 * 0 = t.val / 64; omega
  | ⟨1, _⟩ => show win0_1.index t (1 : Fin 3) * 1024 + 1 * q.val = t.val % 8 * 1024 + q.val; omega
  | ⟨2, _⟩ => show win0_1.index t (2 : Fin 3) * 3 + 1 * d.val = d.val; omega

/-- So point t's tile is the specification's distance on the tile (t / 8 mod 8, t mod 8) of batch t / 64. -/
theorem tile_iblk (c : Dev nD) (t : Fin cfg0.N) (r q : Fin 1024) :
    tile (iblk m c 0 t) (iblk m c 1 t) r q
      = Chamfer.dist (cloud1 m c) (cloud2 m c) (batchOf t) (Chamfer.inTile (t.val / 8 % 8) (Nat.mod_lt _ (by norm_num)) r)
          (Chamfer.inTile (t.val % 8) (Nat.mod_lt _ (by norm_num)) q) := by
  unfold tile Chamfer.dist Chamfer.sqn
  simp only [iblk0_apply, iblk1_apply]

/-- Tile j's point at the offset of p is p itself when p lies in tile j. -/
theorem inTile_sub (p : Fin 8192) (j : ℕ) (hj : j < 8) (e : p.val / 1024 = j) : Chamfer.inTile j hj (sub p) = p := by
  apply Fin.ext
  show j * 1024 + p.val % 1024 = p.val
  omega

section Steps

variable (X1 X2 : Chamfer.Cloud) (b : Fin 4)

/-- The first point of a batch folds tile (0, 0) into +∞: the running row minimum after step 0. -/
theorem row_reset_step (i j : ℕ) (hi : i < 8) (hj : j < 8) (ei : i = 0) (ej : j = 0) (p : Fin 8192) :
    (if p.val / 1024 = i then min (⊤ : EReal) (Finset.univ.inf fun q : Fin 1024 =>
        Chamfer.dist X1 X2 b (Chamfer.inTile i hi (sub p)) (Chamfer.inTile j hj q)) else (⊤ : EReal))
      = Chamfer.rowMin X1 X2 b 0 p := by
  subst ei ej
  rw [Chamfer.rowMin_zero]
  by_cases hp : p.val / 1024 = 0
  · rw [if_pos hp, if_pos hp, inTile_sub p _ _ hp]
  · rw [if_neg hp, if_neg hp]

/-- The same for the running column minimum. -/
theorem col_reset_step (i j : ℕ) (hi : i < 8) (hj : j < 8) (ei : i = 0) (ej : j = 0) (p : Fin 8192) :
    (if p.val / 1024 = j then min (⊤ : EReal) (Finset.univ.inf fun r : Fin 1024 =>
        Chamfer.dist X1 X2 b (Chamfer.inTile i hi r) (Chamfer.inTile j hj (sub p))) else (⊤ : EReal))
      = Chamfer.colMin X1 X2 b 0 p := by
  subst ei ej
  rw [Chamfer.colMin_zero]
  by_cases hp : p.val / 1024 = 0
  · rw [if_pos hp, if_pos hp, inTile_sub p _ _ hp]
  · rw [if_neg hp, if_neg hp]

/-- A later point folds tile ((s + 1) / 8, (s + 1) mod 8) into the running row minimum after step s. -/
theorem row_update_step (s : ℕ) (hs : s + 1 < 64) (i j : ℕ) (hi : i < 8) (hj : j < 8) (ei : i = (s + 1) / 8) (ej : j = (s + 1) % 8)
    (p : Fin 8192) :
    (if p.val / 1024 = i then min (Chamfer.rowMin X1 X2 b s p) (Finset.univ.inf fun q : Fin 1024 =>
        Chamfer.dist X1 X2 b (Chamfer.inTile i hi (sub p)) (Chamfer.inTile j hj q)) else Chamfer.rowMin X1 X2 b s p)
      = Chamfer.rowMin X1 X2 b (s + 1) p := by
  subst ei ej
  rw [Chamfer.rowMin_succ X1 X2 b s hs]
  by_cases hp : p.val / 1024 = (s + 1) / 8
  · rw [if_pos hp, if_pos hp, inTile_sub p _ _ hp]
  · rw [if_neg hp, if_neg hp]

/-- The same for the running column minimum. -/
theorem col_update_step (s : ℕ) (hs : s + 1 < 64) (i j : ℕ) (hi : i < 8) (hj : j < 8) (ei : i = (s + 1) / 8) (ej : j = (s + 1) % 8)
    (p : Fin 8192) :
    (if p.val / 1024 = j then min (Chamfer.colMin X1 X2 b s p) (Finset.univ.inf fun r : Fin 1024 =>
        Chamfer.dist X1 X2 b (Chamfer.inTile i hi r) (Chamfer.inTile j hj (sub p))) else Chamfer.colMin X1 X2 b s p)
      = Chamfer.colMin X1 X2 b (s + 1) p := by
  subst ei ej
  rw [Chamfer.colMin_succ X1 X2 b s hs]
  by_cases hp : p.val / 1024 = (s + 1) % 8
  · rw [if_pos hp, if_pos hp, inTile_sub p _ _ hp]
  · rw [if_neg hp, if_neg hp]

end Steps

/-- The invariant by strong induction on the point's position. -/
theorem mins_inv_aux (c : Dev nD) : ∀ (n : ℕ) (t : Fin cfg0.N), t.val = n → ∀ p : Fin 8192,
    (minsAt m c t.val t.isLt).1 (ix3 0 0 p) = Chamfer.rowMin (cloud1 m c) (cloud2 m c) (batchOf t) (t.val % 64) p
    ∧ (minsAt m c t.val t.isLt).2 (ix3 0 0 p) = Chamfer.colMin (cloud1 m c) (cloud2 m c) (batchOf t) (t.val % 64) p := by
  intro n
  induction n using Nat.strong_induction_on with
  | _ n ih =>
    intro t ht p
    have hN : t.val < 256 := lt_of_lt_of_eq t.isLt (show cfg0.N = 256 from N_0)
    obtain ⟨c0, c1, c2⟩ := coords_val t
    by_cases h0 : t.val % 64 = 0
    · rw [minsAt_reset m c t h0]
      dsimp only
      rw [resetRow_apply c (grid0.coords t) (ms0 t) (hs0 t) (ms1 t) (hs1 t) (ms2 t) (hs2 t) (ms3 t) (hs3 t) ((isReset_iff t).mpr h0) (iblk m c 0 t) (iblk m c 1 t) p,
        resetCol_apply c (grid0.coords t) (ms0 t) (hs0 t) (ms1 t) (hs1 t) (ms2 t) (hs2 t) (ms3 t) (hs3 t) ((isReset_iff t).mpr h0) (iblk m c 0 t) (iblk m c 1 t) p,
        c1, c2, h0]
      simp only [tile_iblk]
      exact ⟨row_reset_step _ _ _ _ _ _ _ (by omega) (by omega) p, col_reset_step _ _ _ _ _ _ _ (by omega) (by omega) p⟩
    · have hlt : t.val - 1 < cfg0.N := Nat.lt_of_le_of_lt (Nat.sub_le _ _) t.isLt
      obtain ⟨s, hs⟩ : ∃ s, t.val % 64 = s + 1 := ⟨t.val % 64 - 1, by omega⟩
      have hb : batchOf ⟨t.val - 1, hlt⟩ = batchOf t := Fin.ext (show (t.val - 1) / 64 = t.val / 64 by omega)
      have hs' : (t.val - 1) % 64 = s := by omega
      have ih' := ih (t.val - 1) (by omega) ⟨t.val - 1, hlt⟩ rfl p
      have ihr : (minsAt m c (t.val - 1) hlt).1 (ix3 0 0 p) = Chamfer.rowMin (cloud1 m c) (cloud2 m c) (batchOf t) s p :=
        ih'.1.trans (by
          show Chamfer.rowMin _ _ (batchOf ⟨t.val - 1, hlt⟩) ((t.val - 1) % 64) p = _
          rw [hb, hs'])
      have ihc : (minsAt m c (t.val - 1) hlt).2 (ix3 0 0 p) = Chamfer.colMin (cloud1 m c) (cloud2 m c) (batchOf t) s p :=
        ih'.2.trans (by
          show Chamfer.colMin _ _ (batchOf ⟨t.val - 1, hlt⟩) ((t.val - 1) % 64) p = _
          rw [hb, hs'])
      rw [minsAt_update m c t h0]
      dsimp only
      rw [updateRow_apply c (grid0.coords t) (ms0 t) (hs0 t) (ms1 t) (hs1 t) (ms2 t) (hs2 t) (ms3 t) (hs3 t) (fun h => h0 ((isReset_iff t).mp h)) (iblk m c 0 t) (iblk m c 1 t)
          (minsAt m c (t.val - 1) hlt).1 (minsAt m c (t.val - 1) hlt).2 p,
        updateCol_apply c (grid0.coords t) (ms0 t) (hs0 t) (ms1 t) (hs1 t) (ms2 t) (hs2 t) (ms3 t) (hs3 t) (fun h => h0 ((isReset_iff t).mp h)) (iblk m c 0 t) (iblk m c 1 t)
          (minsAt m c (t.val - 1) hlt).1 (minsAt m c (t.val - 1) hlt).2 p,
        c1, c2, hs, ihr, ihc]
      simp only [tile_iblk]
      exact ⟨row_update_step _ _ _ s (by omega) _ _ _ _ (by omega) (by omega) p,
        col_update_step _ _ _ s (by omega) _ _ _ _ (by omega) (by omega) p⟩

/-- THE INVARIANT: after point t the two buffers hold the running minima after step t mod 64 of batch t / 64. -/
theorem mins_inv (c : Dev nD) (t : Fin cfg0.N) (p : Fin 8192) :
    (minsAt m c t.val t.isLt).1 (ix3 0 0 p) = Chamfer.rowMin (cloud1 m c) (cloud2 m c) (batchOf t) (t.val % 64) p
    ∧ (minsAt m c t.val t.isLt).2 (ix3 0 0 p) = Chamfer.colMin (cloud1 m c) (cloud2 m c) (batchOf t) (t.val % 64) p :=
  mins_inv_aux m c t.val t rfl p

end Cert.KernelIdeal.PointValue

end
-- ==== Proof.RefValue.lean ====
/-
  The reference's two nearest-neighbour arrays. The reference forms the whole 4 × 8192 × 8192 array of squared
  distances d[b,n,k] = (‖x₁[b,n]‖² + ‖x₂[b,k]‖²) − 2·⟨x₁[b,n], x₂[b,k]⟩ (the norms as sums over the coordinate axis
  from 0, the inner products as one batched contraction) and reduces it by minimum from +∞ along its last axis
  (nearest point of the second cloud) and along its middle axis (nearest point of the first). Read at an index, each
  reduction is the infimum over the reduced axis of the specification's distance.
-/
import proofs.«111738_j2542620639339_1_alg».proof.Proof.Gen.ReferenceIdeal.Run
import proofs.«111738_j2542620639339_1_alg».proof.Proof.Gen.ReferenceIdeal.Read
import proofs.«111738_j2542620639339_1_alg».proof.Proof.ChamferSpec
import Idealize.ShloMosaic.PureOps.Reduce
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The squared norm's index of the first cloud: batch b, point n, coordinate d. -/
theorem idx_sq0 (b : Fin 4) (n k : Fin 8192) (d : Fin 3) :
    idx_main_v1 (idx_main_v5 (idx_main_v7 (ix3 b n k))) d = ix3 b n d :=
  funext fun a => Fin.ext (by match a with | ⟨0, _⟩ => rfl | ⟨1, _⟩ => rfl | ⟨2, _⟩ => rfl)

/-- The squared norm's index of the second cloud: batch b, point k, coordinate d. -/
theorem idx_sq1 (b : Fin 4) (n k : Fin 8192) (d : Fin 3) :
    idx_main_v3 (idx_main_v6 (idx_main_v8 (ix3 b n k))) d = ix3 b k d :=
  funext fun a => Fin.ext (by match a with | ⟨0, _⟩ => rfl | ⟨1, _⟩ => rfl | ⟨2, _⟩ => rfl)

/-- The contraction's left index: batch b, point n, coordinate d. -/
theorem idx_dotl (b : Fin 4) (n k : Fin 8192) (d : Fin 3) :
    lidx_main_v4 (ix3 b n k) d = ix3 b n d :=
  funext fun a => Fin.ext (by match a with | ⟨0, _⟩ => rfl | ⟨1, _⟩ => rfl | ⟨2, _⟩ => rfl)

/-- The contraction's right index: batch b, point k, coordinate d. -/
theorem idx_dotr (b : Fin 4) (n k : Fin 8192) (d : Fin 3) :
    ridx_main_v4 (ix3 b n k) d = ix3 b k d :=
  funext fun a => Fin.ext (by match a with | ⟨0, _⟩ => rfl | ⟨1, _⟩ => rfl | ⟨2, _⟩ => rfl)

/-- The reference's distance array at (b, n, k) is the specification's distance. -/
theorem dist_ref (x0 x1 : (⟨S4x8192x3, .f32⟩ : BufTy).Contents (Elt Ideal)) (b : Fin 4) (n k : Fin 8192) :
    val_main_v12 (F := Ideal) x0 x1 (ix3 b n k) = Chamfer.dist x0 x1 b n k := by
  rw [val_main_v12_apply, val_main_v9_apply, val_main_v11_apply, val_main_v7_apply, val_main_v8_apply,
    val_main_v5_apply, val_main_v6_apply, val_main_v1_apply, val_main_v3_apply, val_main_v10_apply,
    val_main_v4_apply, val_main_cst_apply, val_main_cst_0_apply, val_main_cst_1_apply]
  simp only [val_main_v0_apply, val_main_v2_apply, idx_sq0, idx_sq1, idx_dotl, idx_dotr, Ideal.ofBits_def,
    Ideal.addf_def, Ideal.subf_def, Ideal.mulf_def, Ideal.ofBits_zero_f32, zero_add]
  unfold Chamfer.dist Chamfer.sqn
  rfl

/-- The reference's minimum over the second cloud at (b, n). -/
theorem rowmin_ref (x0 x1 : (⟨S4x8192x3, .f32⟩ : BufTy).Contents (Elt Ideal)) (b : Fin 4) (n : Fin 8192) :
    val_main_v13 (F := Ideal) x0 x1 (ix2 b n) = Finset.univ.inf (Chamfer.dist x0 x1 b n) := by
  have hd := dist_ref x0 x1 b n
  unfold val_main_v13
  generalize val_main_v12 (F := Ideal) x0 x1 = y at hd ⊢
  rw [Host.reduce_eq_fold_single _ y _ reducesTo_S4x8192x8192_S4x8192_d2 (by decide) h_S_ (ix2 b n),
    val_main_cst_2_apply, Ideal.ofBits_def, Chamfer.ofBits_inf]
  refine (Chamfer.fold_min_top _ _).trans (Finset.inf_congr rfl fun k _ => ?_)
  rw [← hd k]
  exact congrArg y (funext fun a => Fin.ext (by match a with | ⟨0, _⟩ => rfl | ⟨1, _⟩ => rfl | ⟨2, _⟩ => rfl))

/-- The reference's minimum over the first cloud at (b, k). -/
theorem colmin_ref (x0 x1 : (⟨S4x8192x3, .f32⟩ : BufTy).Contents (Elt Ideal)) (b : Fin 4) (k : Fin 8192) :
    val_main_v14 (F := Ideal) x0 x1 (ix2 b k) = Finset.univ.inf (fun n => Chamfer.dist x0 x1 b n k) := by
  have hd := fun n => dist_ref x0 x1 b n k
  unfold val_main_v14
  generalize val_main_v12 (F := Ideal) x0 x1 = y at hd ⊢
  rw [Host.reduce_eq_fold_single _ y _ reducesTo_S4x8192x8192_S4x8192_d1 (by decide) h_S_ (ix2 b k),
    val_main_cst_3_apply, Ideal.ofBits_def, Chamfer.ofBits_inf]
  refine (Chamfer.fold_min_top _ _).trans (Finset.inf_congr rfl fun n _ => ?_)
  rw [← hd n]
  exact congrArg y (funext fun a => Fin.ext (by match a with | ⟨0, _⟩ => rfl | ⟨1, _⟩ => rfl | ⟨2, _⟩ => rfl))

end Cert.ReferenceIdeal.RefValue

end
-- ==== Proof.IdealFinal.lean ====
/-
  The two nearest-neighbour arrays the kernel leaves, and the chamfer loss it returns.
  The row buffer of batch b is written back once, after the batch's last point (t ≡ 63 mod 64), as block b of the
  4 × 1 × 8192 result; by then it holds, at entry n, the minimum over the whole second cloud of the squared distance
  from point n. So the result array is, index by index, the specification's row minimum; likewise the column array.
  The host lines after the region reshape both to 4 × 8192, average each and add: the same mean-plus-mean the
  reference applies to its own two minimum arrays, which are the same functions of the clouds.
-/
import proofs.«111738_j2542620639339_1_alg».proof.Proof.IdealInvariant
import proofs.«111738_j2542620639339_1_alg».proof.Proof.RefValue
import Idealize.ShloMosaic.Lib.StableHlo.Run

set_option maxRecDepth 16384

noncomputable section

namespace Cert.KernelIdeal.PointValue

open Idealize.ShloMosaic Idealize.ShloMosaic.TcCoe Idealize.ShloMosaic.ValueIdx Idealize.SL.Sem
open Cert.KernelIdeal Cert.KernelIdeal.Gen Cert.KernelIdeal.Body Idealize.ShloMosaic.StableHlo

variable (m : (ℓ : Loc nD τ sig) → Buf (Elt Ideal) ℓ) (ρ : Dev nD → PrngReg)

/-- The nearest squared distance to the second cloud, laid out as the kernel's 4 × 1 × 8192 result. -/
def rowArr (X1 X2 : Chamfer.Cloud) : (⟨S4x1x8192, .f32⟩ : BufTy).Contents (Elt Ideal) :=
  fun j => Finset.univ.inf (Chamfer.dist X1 X2 ⟨(j 0).val, (j 0).isLt⟩ ⟨(j 2).val, (j 2).isLt⟩)
/-- The nearest squared distance to the first cloud, in the same layout. -/
def colArr (X1 X2 : Chamfer.Cloud) : (⟨S4x1x8192, .f32⟩ : BufTy).Contents (Elt Ideal) :=
  fun j => Finset.univ.inf (fun n => Chamfer.dist X1 X2 ⟨(j 0).val, (j 0).isLt⟩ n ⟨(j 2).val, (j 2).isLt⟩)

/-- Both outputs' block at point t is block t / 64 along the batch axis. -/
theorem outIdx_facts : ∀ t : Fin cfg0.N, win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-- What a write-back point writes of the row minimum: its block of the row array. -/
theorem flushed2_eq (c : Dev nD) (t : Fin cfg0.N) (hf : (cfg0.win 2).flush t = true) :
    (dats m 0 c).flushed 2 t = ((cfg0.win 2).blk t).view.read (Elt Ideal) (rowArr (cloud1 m c) (cloud2 m c)) := by
  have h63 : t.val % 64 = 63 := (flush0_2 t).mp hf
  show (cfg0.win 2).cut (grid0.coords t) ((dats m 0 c).after 2 t) = _
  rw [after2]
  refine funext fun (y : S1x1x8192.Idx) => ?_
  obtain ⟨u, v, p, rfl⟩ : ∃ (u : Fin 1) (v : Fin 1) (p : Fin 8192), y = ix3 u v p := ⟨y 0, y 1, y 2, eq_ix3 y⟩
  obtain rfl : u = 0 := Subsingleton.elim _ _
  obtain rfl : v = 0 := Subsingleton.elim _ _
  show (minsAt m c t.val t.isLt).1 (ix3 0 0 p) = rowArr (cloud1 m c) (cloud2 m c) (((cfg0.win 2).blk t).view.emb (ix3 0 0 p))
  rw [(mins_inv m c t p).1, h63, Chamfer.rowMin_last]
  obtain ⟨i0, i1, i2, -, -, -⟩ := outIdx_facts t
  have e0 : ((((cfg0.win 2).blk t).view.emb (ix3 0 0 p)) (0 : Fin 3)).val = win0_2.index t (0 : Fin 3) * 1 + 1 * 0 := rfl
  have e2 : ((((cfg0.win 2).blk t).view.emb (ix3 0 0 p)) (2 : Fin 3)).val = win0_2.index t (2 : Fin 3) * 8192 + 1 * p.val := rfl
  unfold rowArr
  exact congrArg₂ (fun b n => Finset.univ.inf (Chamfer.dist (cloud1 m c) (cloud2 m c) b n))
    (Fin.ext (by show t.val / 64 = _; rw [e0, i0]; omega)) (Fin.ext (by show p.val = _; rw [e2, i2]; omega))

/-- What a write-back point writes of the column minimum: its block of the column array. -/
theorem flushed3_eq (c : Dev nD) (t : Fin cfg0.N) (hf : (cfg0.win 3).flush t = true) :
    (dats m 0 c).flushed 3 t = ((cfg0.win 3).blk t).view.read (Elt Ideal) (colArr (cloud1 m c) (cloud2 m c)) := by
  have h63 : t.val % 64 = 63 := (flush0_3 t).mp hf
  show (cfg0.win 3).cut (grid0.coords t) ((dats m 0 c).after 3 t) = _
  rw [after3]
  refine funext fun (y : S1x1x8192.Idx) => ?_
  obtain ⟨u, v, p, rfl⟩ : ∃ (u : Fin 1) (v : Fin 1) (p : Fin 8192), y = ix3 u v p := ⟨y 0, y 1, y 2, eq_ix3 y⟩
  obtain rfl : u = 0 := Subsingleton.elim _ _
  obtain rfl : v = 0 := Subsingleton.elim _ _
  show (minsAt m c t.val t.isLt).2 (ix3 0 0 p) = colArr (cloud1 m c) (cloud2 m c) (((cfg0.win 3).blk t).view.emb (ix3 0 0 p))
  rw [(mins_inv m c t p).2, h63, Chamfer.colMin_last]
  obtain ⟨-, -, -, i0, i1, i2⟩ := outIdx_facts t
  have e0 : ((((cfg0.win 3).blk t).view.emb (ix3 0 0 p)) (0 : Fin 3)).val = win0_3.index t (0 : Fin 3) * 1 + 1 * 0 := rfl
  have e2 : ((((cfg0.win 3).blk t).view.emb (ix3 0 0 p)) (2 : Fin 3)).val = win0_3.index t (2 : Fin 3) * 8192 + 1 * p.val := rfl
  unfold colArr
  exact congrArg₂ (fun b k => Finset.univ.inf (fun n => Chamfer.dist (cloud1 m c) (cloud2 m c) b n k))
    (Fin.ext (by show t.val / 64 = _; rw [e0, i0]; omega)) (Fin.ext (by show p.val = _; rw [e2, i2]; omega))

/-- An index of a result array is in point t's block iff its batch coordinate is t / 64. -/
theorem mem_blk2 (t : Fin cfg0.N) (j : S4x1x8192.Idx) :
    j ∈ ((cfg0.win 2).blk t).view.set ↔ ∀ a : Fin 3, win0_2.index t a * S1x1x8192.size a ≤ (j a).val ∧ (j a).val < win0_2.index t a * S1x1x8192.size a + S1x1x8192.size a := by
  show j ∈ ((View.whole main_v0_0).slice (win0_2.rect t)).set ↔ _
  rw [View.set_slice_whole, Rect.mem_set_unit]
  exact Iff.rfl
theorem mem_blk3 (t : Fin cfg0.N) (j : S4x1x8192.Idx) :
    j ∈ ((cfg0.win 3).blk t).view.set ↔ ∀ a : Fin 3, win0_3.index t a * S1x1x8192.size a ≤ (j a).val ∧ (j a).val < win0_3.index t a * S1x1x8192.size a + S1x1x8192.size a := by
  show j ∈ ((View.whole main_v0_1).slice (win0_3.rect t)).set ↔ _
  rw [View.set_slice_whole, Rect.mem_set_unit]
  exact Iff.rfl

/-- Every index of a result array lies in the block written back after the last point of its batch. -/
theorem cover2 (j : S4x1x8192.Idx) : ∃ t : Fin cfg0.N, (cfg0.win 2).flush t = true ∧ j ∈ ((cfg0.win 2).blk t).view.set := by
  have h0 : (j 0).val < 4 := (j 0).isLt
  have h1 : (j 1).val < 1 := (j 1).isLt
  have h2 : (j 2).val < 8192 := (j 2).isLt
  let t : Fin cfg0.N := ⟨(j 0).val * 64 + 63, by rw [show cfg0.N = 256 from N_0]; omega⟩
  obtain ⟨i0, i1, i2, -, -, -⟩ := outIdx_facts t
  have ht : t.val = (j 0).val * 64 + 63 := rfl
  refine ⟨t, (flush0_2 t).mpr (by omega), ?_⟩
  rw [mem_blk2]
  intro a
  match a with
  | ⟨0, _⟩ => show win0_2.index t (0 : Fin 3) * 1 ≤ (j 0).val ∧ (j 0).val < win0_2.index t (0 : Fin 3) * 1 + 1; omega
  | ⟨1, _⟩ => show win0_2.index t (1 : Fin 3) * 1 ≤ (j 1).val ∧ (j 1).val < win0_2.index t (1 : Fin 3) * 1 + 1; omega
  | ⟨2, _⟩ => show win0_2.index t (2 : Fin 3) * 8192 ≤ (j 2).val ∧ (j 2).val < win0_2.index t (2 : Fin 3) * 8192 + 8192; omega
theorem cover3 (j : S4x1x8192.Idx) : ∃ t : Fin cfg0.N, (cfg0.win 3).flush t = true ∧ j ∈ ((cfg0.win 3).blk t).view.set := by
  have h0 : (j 0).val < 4 := (j 0).isLt
  have h1 : (j 1).val < 1 := (j 1).isLt
  have h2 : (j 2).val < 8192 := (j 2).isLt
  let t : Fin cfg0.N := ⟨(j 0).val * 64 + 63, by rw [show cfg0.N = 256 from N_0]; omega⟩
  obtain ⟨-, -, -, i0, i1, i2⟩ := outIdx_facts t
  have ht : t.val = (j 0).val * 64 + 63 := rfl
  refine ⟨t, (flush0_3 t).mpr (by omega), ?_⟩
  rw [mem_blk3]
  intro a
  match a with
  | ⟨0, _⟩ => show win0_3.index t (0 : Fin 3) * 1 ≤ (j 0).val ∧ (j 0).val < win0_3.index t (0 : Fin 3) * 1 + 1; omega
  | ⟨1, _⟩ => show win0_3.index t (1 : Fin 3) * 1 ≤ (j 1).val ∧ (j 1).val < win0_3.index t (1 : Fin 3) * 1 + 1; omega
  | ⟨2, _⟩ => show win0_3.index t (2 : Fin 3) * 8192 ≤ (j 2).val ∧ (j 2).val < win0_3.index t (2 : Fin 3) * 8192 + 8192; omega

/-- The row-minimum result array after the run. -/
theorem final2 (c : Dev nD) : (dats m 0 c).arrAt 2 cfg0.N = rowArr (cloud1 m c) (cloud2 m c) :=
  (dats m 0 c).arrAt_eq_of_cover 2 (rowArr (cloud1 m c) (cloud2 m c)) (fun t hf => flushed2_eq m c t hf) cover2
/-- The column-minimum result array after the run. -/
theorem final3 (c : Dev nD) : (dats m 0 c).arrAt 3 cfg0.N = colArr (cloud1 m c) (cloud2 m c) :=
  (dats m 0 c).arrAt_eq_of_cover 3 (colArr (cloud1 m c) (cloud2 m c)) (fun t hf => flushed3_eq m c t hf) cover3

/-- The mean of each array's entries, added: what the host lines after the region compute from the two result
    arrays, and what the reference's last lines compute from its two minimum arrays. -/
def meanPair (a b : (⟨S4x8192, .f32⟩ : BufTy).Contents (Elt Ideal)) : (⟨S_, .f32⟩ : BufTy).Contents (Elt Ideal) :=
  addf (Host.divf (Host.reduceAdd a (constant (F := Ideal) S_ .f32 0x00000000#32) reducesTo_S4x8192_S_d0_1 h_S_) (constant (F := Ideal) S_ .f32 0x47000000#32))
    (Host.divf (Host.reduceAdd b (constant (F := Ideal) S_ .f32 0x00000000#32) reducesTo_S4x8192_S_d0_1 h_S_) (constant (F := Ideal) S_ .f32 0x47000000#32))

theorem tail_eq (c : Dev nD) :
    Pipeline.afterTail₀ cfgs (dats m) 0 (V0 m) [hostOps1] c main_v7
      = meanPair (shapeCast S4x8192 (rowArr (cloud1 m c) (cloud2 m c)) shapeCasts_S4x1x8192_S4x8192)
          (shapeCast S4x8192 (colArr (cloud1 m c) (cloud2 m c)) shapeCasts_S4x1x8192_S4x8192) := by
  unfold Pipeline.afterTail₀
  show StableHlo.after hostOps1 _ (Proc.devRef .tc main_v7) = _
  after_results
  have w2 : Pipeline.withArrays (cfgs 0).spec c (V0 m c) (fun w => (dats m 0 c).arrAt w (cfgs 0).N) (Proc.devRef .tc main_v0_0)
      = rowArr (cloud1 m c) (cloud2 m c) := (Pipeline.withArrays_arr spec0 launch0.win.arr_inj c _ _ 2).trans (final2 m c)
  have w3 : Pipeline.withArrays (cfgs 0).spec c (V0 m c) (fun w => (dats m 0 c).arrAt w (cfgs 0).N) (Proc.devRef .tc main_v0_1)
      = colArr (cloud1 m c) (cloud2 m c) := (Pipeline.withArrays_arr spec0 launch0.win.arr_inj c _ _ 3).trans (final3 m c)
  rw [w2, w3]
  rfl

/-- The kernel's row array, flattened to 4 × 8192, is the reference's minimum over the second cloud. -/
theorem rowArr_flat (X1 X2 : Chamfer.Cloud) :
    shapeCast S4x8192 (rowArr X1 X2) shapeCasts_S4x1x8192_S4x8192 = Cert.ReferenceIdeal.Read.val_main_v13 (F := Ideal) X1 X2 := by
  funext j
  obtain ⟨b, n, rfl⟩ : ∃ (b : Fin 4) (n : Fin 8192), j = ix2 b n := ⟨j 0, j 1, eq_ix2 j⟩
  rw [Cert.ReferenceIdeal.RefValue.rowmin_ref]
  refine (shapeCast_apply _ _ (ix2 b n) (ix3 b (0 : Fin 1) n) ?_).trans rfl
  rw [Shape.rowMajor_val_three, Shape.rowMajor_val_two]
  show (b.val * 1 + 0) * 8192 + n.val = b.val * 8192 + n.val
  omega

/-- The kernel's column array, flattened, is the reference's minimum over the first cloud. -/
theorem colArr_flat (X1 X2 : Chamfer.Cloud) :
    shapeCast S4x8192 (colArr X1 X2) shapeCasts_S4x1x8192_S4x8192 = Cert.ReferenceIdeal.Read.val_main_v14 (F := Ideal) X1 X2 := by
  funext j
  obtain ⟨b, k, rfl⟩ : ∃ (b : Fin 4) (k : Fin 8192), j = ix2 b k := ⟨j 0, j 1, eq_ix2 j⟩
  rw [Cert.ReferenceIdeal.RefValue.colmin_ref]
  refine (shapeCast_apply _ _ (ix2 b k) (ix3 b (0 : Fin 1) k) ?_).trans rfl
  rw [Shape.rowMajor_val_three, Shape.rowMajor_val_two]
  show (b.val * 1 + 0) * 8192 + k.val = b.val * 8192 + k.val
  omega

/-- The chamfer loss of two clouds: the mean nearest squared distance each way, added. -/
def loss (X1 X2 : Chamfer.Cloud) : (⟨S_, .f32⟩ : BufTy).Contents (Elt Ideal) :=
  meanPair (Cert.ReferenceIdeal.Read.val_main_v13 (F := Ideal) X1 X2) (Cert.ReferenceIdeal.Read.val_main_v14 (F := Ideal) X1 X2)

/-- The reference's result is the loss. -/
theorem ref_loss (X1 X2 : Chamfer.Cloud) : Cert.ReferenceIdeal.Read.val_main_v19 (F := Ideal) X1 X2 = loss X1 X2 := rfl

/-- THE KERNEL'S RUN at the ideal instance: @main ends with its result at the loss of the two argument clouds and
    the arguments unchanged. -/
theorem run_value : θ_run defs (onTc (τ := τ) (main (F := Ideal))) ⟨m, fun _ => 0, ρ⟩ fun r => ∀ c : Dev nD,
      r.2.mem ((c.tc : Thread nD τ).loc main_v7) = loss (cloud1 m c) (cloud2 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (by decide)).trans ((tail_eq m c).trans (by rw [rowArr_flat, colArr_flat]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.PointValue

end
-- ==== Proof.lean ====
/-
  The certificate of the chamfer-distance kernel against its jnp reference.

  Both programs compute, for two batches of 8192-point clouds in three dimensions, the mean over the first cloud of
  the squared distance to the nearest point of the second, plus the same with the clouds exchanged, the squared
  distance expanded as ‖a‖² + ‖b‖² − 2⟨a, b⟩. The reference forms the whole 4 × 8192 × 8192 distance array and reduces it
  by minimum along each of its two long axes. The kernel sweeps the 8 × 8 tiles of 1024 × 1024 pairs of a batch in
  row-major order, keeping a running row minimum and a running column minimum that it resets to +∞ at the batch's
  first tile and writes back after its last. Over the extended reals minimum is associative, commutative and idempotent
  with +∞ as unit, so the running minima after the last tile are the full minima, whatever the order of the sweep;
  the sums, products and the subtraction are the same expressions on both sides (a sum of three products against the
  same three products added one by one into zero). No finiteness of the inputs is used.

  The three frames: the word-level kernel and the idealized kernel by the pipeline's launch theorem over proof data
  that name the running minima point by point (the body is run once for a reset point and once for any other point);
  the reference by its run. The idealization rewrote nothing, so the preservation claim is trivial.
-/
import proofs.«111738_j2542620639339_1_alg».proof.Defs
import proofs.«111738_j2542620639339_1_alg».proof.Proof.Gen.Kernel
import proofs.«111738_j2542620639339_1_alg».proof.Proof.Gen.KernelIdeal
import proofs.«111738_j2542620639339_1_alg».proof.Proof.Gen.ReferenceIdeal
import proofs.«111738_j2542620639339_1_alg».proof.Proof.Gen.Pre_finite_inputs
import proofs.«111738_j2542620639339_1_alg».proof.Proof.BitsBody
import proofs.«111738_j2542620639339_1_alg».proof.Proof.IdealFinal
import Idealize.ShloMosaic.Adequacy
import Idealize.ShloMosaic.Init

noncomputable section

namespace Cert.Proof

open Idealize.ShloMosaic Idealize.SL.Sem

/-- The word-level kernel runs to the end and leaves its two argument clouds unchanged. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the chamfer loss of the two clouds. -/
theorem algebraic : Cert.algebraic_KernelIdeal_ReferenceIdeal := by
  intro m ρ m' ρ' _ hagree
  refine ⟨fun c => Cert.KernelIdeal.PointValue.loss (Cert.KernelIdeal.PointValue.cloud1 m c) (Cert.KernelIdeal.PointValue.cloud2 m c),
    Cert.KernelIdeal.PointValue.run_value m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v19_eq, (hagree c).1, (hagree c).2]
  exact Cert.KernelIdeal.PointValue.ref_loss _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
